-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S50257x1024 : Shape := ⟨2, ![50257, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x1024 .f32) (main_arg1 : FVec F S50257x1024 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 50257#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x1024 : Shape := ⟨2, ![4096, 1024]⟩
abbrev S50257x1024 : Shape := ⟨2, ![50257, 1024]⟩
abbrev S4096 : Shape := ⟨1, ![4096]⟩
abbrev S_ : Shape := ⟨0, ![]⟩
abbrev S50688x1024 : Shape := ⟨2, ![50688, 1024]⟩
abbrev S4096x1 : Shape := ⟨2, ![4096, 1]⟩
abbrev S2048x1024 : Shape := ⟨2, ![2048, 1024]⟩
abbrev S512x1024 : Shape := ⟨2, ![512, 1024]⟩
abbrev S2048x1 : Shape := ⟨2, ![2048, 1]⟩
abbrev S1024x512 : Shape := ⟨2, ![1024, 512]⟩
abbrev S2048x512 : Shape := ⟨2, ![2048, 512]⟩
abbrev S2048 : Shape := ⟨1, ![2048]⟩

abbrev nBuf : Space → Nat
  | .hbm => 30
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S50257x1024, .f32⟩
  | .hbm, ⟨2, _⟩ => ⟨S4096, .i32⟩
  | .hbm, ⟨3, _⟩ => ⟨S4096x1024, .bf16⟩
  | .hbm, ⟨4, _⟩ => ⟨S50257x1024, .bf16⟩
  | .hbm, ⟨5, _⟩ => ⟨S_, .i32⟩
  | .hbm, ⟨6, _⟩ => ⟨S_, .bf16⟩
  | .hbm, ⟨7, _⟩ => ⟨S50688x1024, .bf16⟩
  | .hbm, ⟨8, _⟩ => ⟨S4096x1, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x1024, .bf16⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S4096x1, .f32⟩
  | .hbm, ⟨25, _⟩ => ⟨S4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 99], ![false, false]⟩

def k0_cond2 (i : grid0.Coords) : BitVec 1 :=
  let arg1 : BitVec 32 := BitVec.ofNat 32 (i 1).val
  let c98_i32 : BitVec 32 := 98#32
  let v38 : BitVec 1 := Scalar.cmpi .eq arg1 c98_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  pads_S50257x1024_S50688x1024_04310_000 : S50257x1024.Pads (![0, 0] : Fin 2 → Nat) ![431, 0] ![0, 0] S50688x1024
  h_S_ : 0 < S_.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  iota_S2048x512_d1_w32 : S2048x512.Iotas .tc 32 [1]
  reduces_S2048x512_S2048 : S2048x512.Reduces [1] S2048
  shapeCasts_S2048_S2048x1 : S2048.ShapeCasts S2048x1
  broadcasts_S2048x1_S2048x512 : S2048x1.Broadcasts S2048x512
  bcast_S_S4096 : S_.BroadcastsInDim S4096 (![] : Fin 0 → Fin S4096.rank)
  bcast_S4096_S4096x1_0 : S4096.BroadcastsInDim S4096x1 (![0] : Fin 1 → Fin S4096x1.rank)
  reducesTo_S4096x1024_S4096_d1 : S4096x1024.ReducesTo [1] S4096
  shapeCasts_S4096x1_S4096 : S4096x1.ShapeCasts S4096
  reducesTo_S4096_S_d0 : S4096.ReducesTo [0] S_
  dot_S2048x1024_S1024x512_S2048x512_1_0_0_1_n_n_wf : DotDims.WF S2048x1024 S1024x512 S2048x512 [1] [0] [0] [1] [] []
  gather_S50257x1024_S4096x1_S4096x1024_1_0_n_n_0_1_11024_wf : GatherDims.WF S50257x1024 S4096x1 S4096x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S50688x1024.size a
  hwx0_1 : ∀ i : grid0.Coords, EltTy.bits .bf16 = 32 ∨ (Rect.block (s := S50688x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def gather_S50257x1024_S4096x1_S4096x1024_1_0_n_n_0_1_11024 : GatherDims S50257x1024 S4096x1 S4096x1024 where
  offsetDims := [1]
  collapsedSliceDims := [0]
  operandBatchingDims := []
  startIndicesBatchingDims := []
  startIndexMap := [0]
  indexVectorDim := 1
  sliceSizes := ![1, 1024]
  wf := gather_S50257x1024_S4096x1_S4096x1024_1_0_n_n_0_1_11024_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S50257x1024 : Shape := ⟨2, ![50257, 1024]⟩
abbrev S4096 : Shape := ⟨1, ![4096]⟩
abbrev S4096x50257 : Shape := ⟨2, ![4096, 50257]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S50257x1024, .f32⟩
  | .hbm, ⟨2, _⟩ => ⟨S4096, .i32⟩
  | .hbm, ⟨3, _⟩ => ⟨S4096x50257, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1, .f32⟩
  | .hbm, ⟨10, _⟩ => ⟨S4096x50257, .f32⟩
  | .hbm, ⟨11, _⟩ => ⟨S4096x50257, .f32⟩
  | .hbm, ⟨12, _⟩ => ⟨S4096x50257, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S4096x50257, .f32⟩
  | .hbm, ⟨18, _⟩ => ⟨S4096x50257, .f32⟩
  | .hbm, ⟨19, _⟩ => ⟨S4096x1, .i32⟩
  | .hbm, ⟨20, _⟩ => ⟨S_, .i32⟩
  | .hbm, ⟨21, _⟩ => ⟨S4096x1, .i32⟩
  | .hbm, ⟨22, _⟩ => ⟨S4096x1, .i1⟩
  | .hbm, ⟨23, _⟩ => ⟨S_, .i32⟩
  | .hbm, ⟨24, _⟩ => ⟨S4096x1, .i32⟩
  | .hbm, ⟨25, _⟩ => ⟨S4096x1, .i32⟩
  | .hbm, ⟨26, _⟩ => ⟨S4096x1, .i32⟩
  | .hbm, ⟨27, _⟩ => ⟨S4096x1x1, .i32⟩
  | .hbm, ⟨28, _⟩ => ⟨S1, .i32⟩
  | .hbm, ⟨29, _⟩ => ⟨S_, .i32⟩
  | .hbm, ⟨30, _⟩ => ⟨S4096x1x1, .i32⟩
  | .hbm, ⟨31, _⟩ => ⟨S4096x1x1, .i1⟩
  | .hbm, ⟨32, _⟩ => ⟨S1x1x1, .i32⟩
  | .hbm, ⟨33, _⟩ => ⟨S4096x1x1, .i32⟩
  | .hbm, ⟨34, _⟩ => ⟨S4096x1x1, .i1⟩
  | .hbm, ⟨35, _⟩ => ⟨S4096x1x1, .i1⟩
  | .hbm, ⟨36, _⟩ => ⟨S_, .i1⟩
  | .hbm, ⟨37, _⟩ => ⟨S4096x1, .i1⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_v2 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst : Ref sig .tc := ⟨.hbm, 44, rfl⟩
abbrev main_v6 : Ref sig .tc := ⟨.hbm, 45, rfl⟩
abbrev main_cst_0 : Ref sig .tc := ⟨.hbm, 46, rfl⟩
abbrev main_v7 : Ref sig .tc := ⟨.hbm, 47, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x1024_S50257x1024_S4096x50257_1_1_0_0_n_n_wf : DotDims.WF S4096x1024 S50257x1024 S4096x50257 [1] [1] [0] [0] [] []
  gather_S4096x50257_S4096x1x1_S4096x1_n_1_0_0_1_2_11_wf : GatherDims.WF S4096x50257 S4096x1x1 S4096x1 [] [1] [0] [1] [0] 2 ![1, 1]

variable [Facts₀]

def dot_S4096x1024_S50257x1024_S4096x50257_1_1_0_0_n_n : DotDims S4096x1024 S50257x1024 S4096x50257 where
  lhsContracting := [1]
  rhsContracting := [1]
  lhsNonContracting := [0]
  rhsNonContracting := [0]
  lhsBatch := []
  rhsBatch := []
  wf := dot_S4096x1024_S50257x1024_S4096x50257_1_1_0_0_n_n_wf
def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

class Facts : Prop extends Facts₀ where

variable [Facts]
-- ==== Proof.KernelPieces.lean ====
/-
  What one grid point leaves in the two carried rows and in the output block, as values.

  The body keeps, per row of the current row block, a running maximum and a running sum of exponentials.  At each of
  the three kinds of grid point (the first vocabulary tile of a row block, a middle tile, the last tile) what the
  body's stores leave in each buffer is one pure function of the two input blocks and of what the point before left:
  the last store into the buffer covers it whole, and every load reads a whole buffer.
-/
import proofs.«428059_j5652176961787_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- At a middle tile the carried maximum ends as the maximum of what was carried and the tile's row maxima. -/
theorem carriedMax_B (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x1024 .bf16) (x1 : Vec F S512x1024 .bf16) (xs0 : Vec F S2048x1 .f32) (xs1 : Vec F S2048x1 .f32) :
    sout0_B_0 c i arg2 harg2 arg3 harg3 arg4 harg4 arg5 harg5 arg6 harg6 hc0 hc1 x0 x1 xs0 xs1 = k0_pay1 (k0_pay6 i x0 x1 xs0) := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

/-- At a middle tile the carried sum ends rescaled to the new maximum plus the tile's sum of exponentials. -/
theorem carriedSum_B (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x1024 .bf16) (x1 : Vec F S512x1024 .bf16) (xs0 : Vec F S2048x1 .f32) (xs1 : Vec F S2048x1 .f32) :
    sout0_B_1 c i arg2 harg2 arg3 harg3 arg4 harg4 arg5 harg5 arg6 harg6 hc0 hc1 x0 x1 xs0 xs1 = k0_pay7 i x0 x1 xs0 xs0 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

/-- At a row block's first tile the carried maximum is first reset to the stand-in for −∞, so it ends as the tile's row maxima taken from there. -/
theorem carriedMax_A (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x1024 .bf16) (x1 : Vec F S512x1024 .bf16) :
    sout0_A_0 c i arg2 harg2 arg3 harg3 arg4 harg4 arg5 harg5 arg6 harg6 hc0 hc1 x0 x1 = k0_pay1 (k0_pay6 i x0 x1 k0_pay3) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

/-- At a row block's first tile the carried sum is first reset to zero, so it ends as the tile's sum of exponentials alone (the rescaled zero adds nothing). -/
theorem carriedSum_A (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x1024 .bf16) (x1 : Vec F S512x1024 .bf16) :
    sout0_A_1 c i arg2 harg2 arg3 harg3 arg4 harg4 arg5 harg5 arg6 harg6 hc0 hc1 x0 x1 = k0_pay7 i x0 x1 k0_pay3 k0_pay3 k0_pay4 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

/-- At the last tile the carried maximum is updated exactly as at a middle tile. -/
theorem carriedMax_C (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x1024 .bf16) (x1 : Vec F S512x1024 .bf16) (xs0 : Vec F S2048x1 .f32) (xs1 : Vec F S2048x1 .f32) :
    sout0_C_0 c i arg2 harg2 arg3 harg3 arg4 harg4 arg5 harg5 arg6 harg6 hc0 hc1 x0 x1 xs0 xs1 = k0_pay1 (k0_pay6 i x0 x1 xs0) := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

/-- At the last tile the carried sum is updated exactly as at a middle tile. -/
theorem carriedSum_C (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x1024 .bf16) (x1 : Vec F S512x1024 .bf16) (xs0 : Vec F S2048x1 .f32) (xs1 : Vec F S2048x1 .f32) :
    sout0_C_1 c i arg2 harg2 arg3 harg3 arg4 harg4 arg5 harg5 arg6 harg6 hc0 hc1 x0 x1 xs0 xs1 = k0_pay7 i x0 x1 xs0 xs0 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

/-- At the last tile the output block is the updated maximum plus the logarithm of the updated sum. -/
theorem written_C (c : Dev nD) (i : grid0.Coords) (arg2 : Memref sig .tc .vmem S2048x1024 .bf16) (harg2 : arg2.IsWhole) (arg3 : Memref sig .tc .vmem S512x1024 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x1024 .bf16) (x1 : Vec F S512x1024 .bf16) (xs0 : Vec F S2048x1 .f32) (xs1 : Vec F S2048x1 .f32) :
    out0_C_2 c i arg2 harg2 arg3 harg3 arg4 harg4 arg5 harg5 arg6 harg6 hc0 hc1 x0 x1 xs0 xs1 = k0_pay2 (k0_pay1 (k0_pay6 i x0 x1 xs0)) (k0_pay7 i x0 x1 xs0 xs0 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz]
  simp only [View.readAt_eq_ld, harg2.read_unread, harg3.read_unread, harg4.read_unread, harg5.read_unread, harg6.read_unread, View.ld_unit_zero (S := S2048x1024) hz, View.ld_unit_zero (S := S512x1024) hz, View.ld_unit_zero (S := S2048x1) hz, View.readCov_unit_zero (S := S2048x1) _ hz]

end Cert.KernelIdeal.Pieces
end
-- ==== Proof.KernelTile.lean ====
/-
  One vocabulary tile's arithmetic, read row by row at the ideal values.

  For a row r of the current row block and a column k of the current vocabulary tile the masked logit is the dot
  product of row r of the x block with row k of the W block where the column counts (its absolute index is below
  50257) and −∞ elsewhere; the new running maximum of the row is the old one against the maximum of the row's masked
  logits; the new running sum is the old one rescaled by exp (old maximum − new maximum) plus the sum of
  exp (masked logit − new maximum) over the tile; and the last tile writes maximum + log sum.
-/
import proofs.«428059_j5652176961787_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Tile

open Idealize.ShloMosaic Idealize.ShloMosaic.TcCoe Idealize.ShloMosaic.ValueIdx
open Cert.KernelIdeal Cert.KernelIdeal.Gen

/-! ## Column layouts read at an index

A running maximum or sum is kept as a column, one entry per row: a [a] vector viewed as [a, 1], and a [a, 1] column
spread over the b columns of an [a, b] tile.  Each reads, at (r, ·), the one entry of row r. -/

section Layout
variable {α : Type}

/-- An `[a]` array viewed as an `[a, 1]` column reads, at `(r, u)`, the operand at `r`: both have row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its second axis: the source index over row `r` with column `k` inserted is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by
    match c with
    | ⟨0, _⟩ => rfl
    | ⟨1, _⟩ => rfl)

end Layout

/-- The pattern 0xFF800000, the start of a row maximum, is −∞. -/
theorem neg_inf_eq : FloatOps.ofBits (F := Ideal) .f32 0xFF800000#32 = (⊥ : EReal) := by
  simp [Ideal.ofBits, Ideal.ieee]

/-- The kernel's finite stand-in for −∞ is −∞ at the ideal values, by the certificate's table. -/
theorem neg_big_eq : Named.named (F := Ideal) Cert.KernelIdeal.κ "neg_big" (φ := .f32) 0xFF333332#32 = (⊥ : EReal) := by
  exact IdealRules.named_const.ideal_named_scalar _ _ _ _ rfl

/-- The reset of the running maximum: every row starts at −∞. -/
theorem reset_max_apply (y : S2048x1.Idx) : k0_pay3 (F := Ideal) y = (⊥ : EReal) := by
  unfold k0_pay3
  rw [shapeCast_self]
  exact neg_big_eq

/-- The reset of the running sum: every row starts at 0. -/
theorem reset_sum_apply (y : S2048x1.Idx) : k0_pay4 (F := Ideal) y = (0 : EReal) := by
  unfold k0_pay4
  rw [shapeCast_self]
  exact Ideal.ofBits_zero_f32

/-- What is stored back as the running maximum is the new maximum itself. -/
theorem stored_max_eq (v : FVec Ideal S2048x1 .f32) : k0_pay1 (F := Ideal) v = v := by
  unfold k0_pay1
  exact shapeCast_self _ _

/-! ## The mask bit

Column k of vocabulary tile t has absolute index t · 512 + k.  With t < 99 and k < 512 this is below 50688 < 2³¹, so
neither the word product nor the word sum wraps, the sum's signed value is that number, and the signed comparison with
50257 is the comparison of natural numbers. -/

/-- The word comparison  t · 512 + k <ₛ 50257  is the bit of the natural-number comparison. -/
theorem mask_bit (t k : ℕ) (ht : t < 99) (hk : k < 512) :
    IntOp.cmpi .slt (IntOp.addi (Scalar.muli (BitVec.ofNat 32 t) 512#32) (BitVec.ofNat 32 k)) 50257#32
      = if t * 512 + k < 50257 then 1#1 else 0#1 := by
  have hn : (IntOp.addi (Scalar.muli (BitVec.ofNat 32 t) 512#32) (BitVec.ofNat 32 k)).toNat = t * 512 + k := by
    show (BitVec.ofNat 32 t * 512#32 + BitVec.ofNat 32 k).toNat = _
    have h1 : t % 2 ^ 32 = t := Nat.mod_eq_of_lt (by omega)
    have h2 : k % 2 ^ 32 = k := Nat.mod_eq_of_lt (by omega)
    simp only [BitVec.toNat_add, BitVec.toNat_mul, BitVec.toNat_ofNat, h1, h2]
    omega
  have hi : (IntOp.addi (Scalar.muli (BitVec.ofNat 32 t) 512#32) (BitVec.ofNat 32 k)).toInt = ((t * 512 + k : ℕ) : ℤ) := by
    rw [BitVec.toInt_eq_toNat_of_lt (by rw [hn]; omega), hn]
  have h50 : (50257#32 : BitVec 32).toInt = 50257 := by decide
  by_cases hlt : t * 512 + k < 50257
  · rw [if_pos hlt]
    exact IntOp.cmpi_slt.2 (by rw [hi, h50]; exact_mod_cast hlt)
  · rw [if_neg hlt]
    refine eq_zero_of_ne_one fun e => hlt ?_
    have := IntOp.cmpi_slt.1 e
    rw [hi, h50] at this
    exact_mod_cast this

/-! ## The product read at an index

The product contracts axis 1 of the left operand [2048, 1024] with axis 0 of the right operand [1024, 512]: at output
(r, k) and contraction position d the left operand is read at (r, d) and the right at (d, k).  The right operand is the
transpose of the W block, so it reads the block at (k, d). -/

theorem lhs_dot_0 (j : S2048x512.Idx) (q : dot_S2048x1024_S1024x512_S2048x512_1_0_0_1_n_n.contr.Idx) :
    (dot_S2048x1024_S1024x512_S2048x512_1_0_0_1_n_n.lhsIdx j q 0).val = (j 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_dot_1 (j : S2048x512.Idx) (q : dot_S2048x1024_S1024x512_S2048x512_1_0_0_1_n_n.contr.Idx) :
    (dot_S2048x1024_S1024x512_S2048x512_1_0_0_1_n_n.lhsIdx j q 1).val = (q ⟨0, by decide⟩).val :=
  dot_S2048x1024_S1024x512_S2048x512_1_0_0_1_n_n.lhsIdx_val_of_single rfl j q
theorem rhs_dot_0 (j : S2048x512.Idx) (q : dot_S2048x1024_S1024x512_S2048x512_1_0_0_1_n_n.contr.Idx) :
    (dot_S2048x1024_S1024x512_S2048x512_1_0_0_1_n_n.rhsIdx j q 0).val = (q ⟨0, by decide⟩).val :=
  dot_S2048x1024_S1024x512_S2048x512_1_0_0_1_n_n.rhsIdx_val_of_single rfl j q
theorem rhs_dot_1 (j : S2048x512.Idx) (q : dot_S2048x1024_S1024x512_S2048x512_1_0_0_1_n_n.contr.Idx) :
    (dot_S2048x1024_S1024x512_S2048x512_1_0_0_1_n_n.rhsIdx j q 1).val = (j 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The product of the x block with the transposed W block, into the zero accumulator, read at (r, k): the dot product of
    row r of the x block with row k of the W block. -/
theorem product_apply (x0 : FVec Ideal S2048x1024 .bf16) (x1 : FVec Ideal S512x1024 .bf16) (r : Fin 2048) (k : Fin 512) :
    matmul dot_S2048x1024_S1024x512_S2048x512_1_0_0_1_n_n none
        (shapeCast S2048x1024 x0 Facts₀.shapeCasts_S2048x1024_S2048x1024)
        (transpose S1024x512 [1, 0] (shapeCast S512x1024 x1 Facts₀.shapeCasts_S512x1024_S512x1024) Facts₀.transposes_S512x1024_p1_0_S1024x512)
        (constant (F := Ideal) S2048x512 .f32 0x00000000#32) (ix2 r k)
      = ∑ d : Fin 1024, x0 (ix2 r d) * x1 (ix2 k d) := by
  rw [shapeCast_self, shapeCast_self]
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun d _ => ?_
  have hd := ValueIdx.contrEquiv1_symm_val dot_S2048x1024_S1024x512_S2048x512_1_0_0_1_n_n 1024 rfl rfl d
  have el : dot_S2048x1024_S1024x512_S2048x512_1_0_0_1_n_n.lhsIdx (ix2 r k) ((ValueIdx.contrEquiv1 dot_S2048x1024_S1024x512_S2048x512_1_0_0_1_n_n 1024 rfl rfl).symm d) = ix2 r d := funext fun a => Fin.ext (by
    match a with
    | ⟨0, _⟩ => exact lhs_dot_0 _ _
    | ⟨1, _⟩ => exact (lhs_dot_1 _ _).trans hd)
  have er : dot_S2048x1024_S1024x512_S2048x512_1_0_0_1_n_n.rhsIdx (ix2 r k) ((ValueIdx.contrEquiv1 dot_S2048x1024_S1024x512_S2048x512_1_0_0_1_n_n 1024 rfl rfl).symm d) = ix2 d k := funext fun a => Fin.ext (by
    match a with
    | ⟨0, _⟩ => exact (rhs_dot_0 _ _).trans hd
    | ⟨1, _⟩ => exact rhs_dot_1 _ _)
  rw [el, er, transpose_ix2_apply]

/-- The masked logit of row `r` against column `k` of the tile. -/
theorem masked_apply (i : grid0.Coords) (x0 : Vec Ideal S2048x1024 .bf16) (x1 : Vec Ideal S512x1024 .bf16)
    (r : Fin 2048) (k : Fin 512) :
    k0_pay5 (F := Ideal) i x0 x1 (ix2 r k)
      = if (i 1).val * 512 + k.val < 50257 then ∑ d : Fin 1024, x0 (ix2 r d) * x1 (ix2 k d) else (⊥ : EReal) := by
  have h99 : (i 1).val < 99 := (i 1).isLt
  unfold k0_pay5
  refine (select_apply _ _ _ _).trans ?_
  -- the mask at (r, k): the tile's first absolute column plus k, compared with the vocabulary size
  have hm : cmpi .slt (addi (broadcast S2048x512 (Scalar.muli (BitVec.ofNat 32 (i 1).val) 512#32))
        (iota .tc S2048x512 32 [1] Facts₀.iota_S2048x512_d1_w32)) (broadcast S2048x512 50257#32) (ix2 r k)
      = if (i 1).val * 512 + k.val < 50257 then 1#1 else 0#1 := by
    show IntOp.cmpi .slt (IntOp.addi (Scalar.muli (BitVec.ofNat 32 (i 1).val) 512#32)
      (iota .tc S2048x512 32 [1] Facts₀.iota_S2048x512_d1_w32 (ix2 r k))) 50257#32 = _
    rw [iota_single_apply]
    exact mask_bit (i 1).val k.val h99 k.isLt
  rw [hm, product_apply x0 x1 r k]
  -- where the mask is clear the entry is the named constant, −∞ at the ideal values
  show Scalar.select _ _ (Named.named (F := Ideal) κ "neg_big" (φ := .f32) 0xFF333332#32) = _
  rw [neg_big_eq]
  by_cases hlt : (i 1).val * 512 + k.val < 50257
  · rw [if_pos hlt, if_pos hlt, select_one]
  · rw [if_neg hlt, if_neg hlt, select_zero]

/-- The new running maximum of row `r`. -/
theorem newmax_apply (i : grid0.Coords) (x0 : Vec Ideal S2048x1024 .bf16) (x1 : Vec Ideal S512x1024 .bf16)
    (v19 : Vec Ideal S2048x1 .f32) (r : Fin 2048) :
    k0_pay6 (F := Ideal) i x0 x1 v19 (ix2 r (0 : Fin 1))
      = max (v19 (ix2 r (0 : Fin 1)))
          ((Finset.univ : Finset (Fin 512)).fold max (⊥ : EReal) (fun k => k0_pay5 (F := Ideal) i x0 x1 (ix2 r k))) := by
  unfold k0_pay6
  -- the old maximum against the column view of the row maxima of the masked logits
  refine (maximumf_apply _ _ _).trans ?_
  refine congrArg (max (v19 (ix2 r (0 : Fin 1)))) ?_
  refine (shapeCast_a_a1_apply _ _ r (0 : Fin 1)).trans ?_
  -- the row maximum is the fold of max from −∞ over the 512 columns of row r
  refine (Ideal.multiReduction_maximumf_single (k0_pay5 (F := Ideal) i x0 x1) _ Facts₀.reduces_S2048x512_S2048 _ _ (ix1 r)).trans ?_
  rw [neg_inf_eq]
  refine congrArg (fun f => Finset.fold max (⊥ : EReal) f (Finset.univ : Finset (Fin 512))) ?_
  funext k
  exact congrArg (k0_pay5 (F := Ideal) i x0 x1) (lift_row _ r k)

/-- The new running sum of row `r`. -/
theorem newsum_apply (i : grid0.Coords) (x0 : Vec Ideal S2048x1024 .bf16) (x1 : Vec Ideal S512x1024 .bf16)
    (v19 v21 v27 : Vec Ideal S2048x1 .f32) (r : Fin 2048) :
    k0_pay7 (F := Ideal) i x0 x1 v19 v21 v27 (ix2 r (0 : Fin 1))
      = Ideal.exp (v21 (ix2 r (0 : Fin 1)) - k0_pay6 (F := Ideal) i x0 x1 v19 (ix2 r (0 : Fin 1))) * v27 (ix2 r (0 : Fin 1))
        + ∑ k : Fin 512, Ideal.exp (k0_pay5 (F := Ideal) i x0 x1 (ix2 r k) - k0_pay6 (F := Ideal) i x0 x1 v19 (ix2 r (0 : Fin 1))) := by
  unfold k0_pay7
  rw [shapeCast_self]
  -- the rescaled old sum plus the column view of the row sums
  refine (addf_apply _ _ _).trans ?_
  refine congrArg (Ideal.exp (v21 (ix2 r (0 : Fin 1)) - k0_pay6 (F := Ideal) i x0 x1 v19 (ix2 r (0 : Fin 1))) * v27 (ix2 r (0 : Fin 1)) + ·) ?_
  refine (shapeCast_a_a1_apply _ _ r (0 : Fin 1)).trans ?_
  -- the row sum runs over the 512 columns of row r
  refine (Ideal.multiReduction_add_single _ _ Facts₀.reduces_S2048x512_S2048 _ _ (ix1 r)).trans ?_
  refine Finset.sum_congr rfl fun (k : Fin 512) _ => ?_
  refine (congrArg _ (lift_row Facts₀.reduces_S2048x512_S2048 r k)).trans ?_
  -- the summand: exp of the masked logit minus the new maximum of its row, spread over the columns
  show Ideal.exp (k0_pay5 (F := Ideal) i x0 x1 (ix2 r k)
    - broadcastTo S2048x512 (k0_pay6 (F := Ideal) i x0 x1 v19) Facts₀.broadcasts_S2048x1_S2048x512 (ix2 r k)) = _
  rw [broadcastTo_a1_ab_apply]

/-- What the last tile writes for row `r`: maximum plus the logarithm of the sum. -/
theorem written_apply (v41 v42 : Vec Ideal S2048x1 .f32) (r : Fin 2048) :
    k0_pay2 (F := Ideal) v41 v42 (ix2 r (0 : Fin 1)) = v41 (ix2 r (0 : Fin 1)) + Ideal.log (v42 (ix2 r (0 : Fin 1))) := by
  unfold k0_pay2
  rfl

end Cert.KernelIdeal.Tile

end
-- ==== Proof.KernelBlocks.lean ====
/-
  The two input blocks of a grid point, entry by entry.

  Grid point t is row block t / 99 against vocabulary tile t % 99.  The x window reads rows
  2048 · (t / 99) … of x, the W window rows 512 · (t % 99) … of W padded with rows of zeros up to 50688 rows;
  on the host side both arrays are only changed in float format before the region, which changes no value.
-/
import proofs.«428059_j5652176961787_2_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
import Idealize.ShloMosaic.Lib.KernelVsHost
import Idealize.ShloMosaic.PureOps.Ideal.Laws
set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Idealize.ShloMosaic.StableHlo

/-- A grid point's two coordinates: the row block and the vocabulary tile. -/
theorem coords_facts : ∀ t : Fin cfg0.N, (grid0.coords t 0).val = t.val / 99 ∧ (grid0.coords t 1).val = t.val % 99 :=
  (by decide +kernel : ∀ t : Fin grid0.N, (grid0.coords t 0).val = t.val / 99 ∧ (grid0.coords t 1).val = t.val % 99)

/-- The three windows' block indices at a grid point. -/
theorem idx_facts : ∀ t : Fin cfg0.N,
    win0_0.index t (0 : Fin 2) = t.val / 99 ∧ win0_0.index t (1 : Fin 2) = 0
    ∧ win0_1.index t (0 : Fin 2) = t.val % 99 ∧ win0_1.index t (1 : Fin 2) = 0
    ∧ win0_2.index t (0 : Fin 2) = t.val / 99 ∧ win0_2.index t (1 : Fin 2) = 0 :=
  (by decide +kernel : ∀ t : Fin grid0.N,
    win0_0.index t (0 : Fin 2) = t.val / 99 ∧ win0_0.index t (1 : Fin 2) = 0
    ∧ win0_1.index t (0 : Fin 2) = t.val % 99 ∧ win0_1.index t (1 : Fin 2) = 0
    ∧ win0_2.index t (0 : Fin 2) = t.val / 99 ∧ win0_2.index t (1 : Fin 2) = 0)

variable (m : (ℓ : Loc nD τ sig) → Buf (Elt Ideal) ℓ)

/-- The x window's array as the region finds it: x itself (a change of float format is the identity). -/
theorem xarr_eq (c : Dev nD) :
    (V m c main_v0 : S4096x1024.Idx → EReal) = truncf (F := Ideal) .bf16 (m ((c : Thread nD τ).loc main_arg0)) bitsLt_bf16_f32 := by
  dsimp only [Gen.V, Gen.V0]
  simp only [Gen.hostOps0, Gen.hostOps0_1, List.flatten_cons, List.flatten_nil, List.append_nil, List.cons_append, List.nil_append]
  after_results
  all_goals rfl

/-- The W window's array as the region finds it: W with 431 rows of zeros appended. -/
theorem warr_eq (c : Dev nD) :
    (V m c main_v2 : S50688x1024.Idx → EReal)
      = pad S50688x1024 ![0, 0] ![431, 0] ![0, 0] (truncf (F := Ideal) .bf16 (m ((c : Thread nD τ).loc main_arg1)) bitsLt_bf16_f32)
          (sitofp (F := Ideal) .bf16 (constantI S_ 32 0#32)) pads_S50257x1024_S50688x1024_04310_000 h_S_ := by
  dsimp only [Gen.V, Gen.V0]
  simp only [Gen.hostOps0, Gen.hostOps0_1, List.flatten_cons, List.flatten_nil, List.append_nil, List.cons_append, List.nil_append]
  after_results
  all_goals rfl

/-- Row `r` of the row block of grid point `t`, as a row of x. -/
def rowOf (t : Fin cfg0.N) (r : Fin 2048) : Fin 4096 :=
  ⟨t.val / 99 * 2048 + r.val, by have := t.isLt; have : cfg0.N = 198 := N_0; have := r.isLt; omega⟩

/-- The x block of a grid point, entry by entry: rows `2048 · (row block)` onwards of x. -/
theorem xblk_apply (c : Dev nD) (t : Fin cfg0.N) (r : Fin 2048) (d : Fin 1024) :
    (iblk m c 0 t : Vec Ideal S2048x1024 .bf16) (ix2 r d) = m ((c : Thread nD τ).loc main_arg0) (ix2 (rowOf t r) d) := by
  unfold iblk
  rw [View.read_apply]
  show V m c main_v0 _ = _
  rw [xarr_eq]
  show m ((c : Thread nD τ).loc main_arg0) _ = m ((c : Thread nD τ).loc main_arg0) _
  congr 1
  funext a
  apply Fin.ext
  match a with
  | ⟨0, _⟩ => show win0_0.index t 0 * 2048 + 1 * r.val = t.val / 99 * 2048 + r.val; rw [(idx_facts t).1]; omega
  | ⟨1, _⟩ => show win0_0.index t 1 * 1024 + 1 * d.val = d.val; rw [(idx_facts t).2.1]; omega

/-- The W block of a grid point, entry by entry: rows `512 · (tile)` onwards of W, zeros past row 50257. -/
theorem wblk_apply (c : Dev nD) (t : Fin cfg0.N) (k : Fin 512) (d : Fin 1024) :
    (iblk m c 1 t : Vec Ideal S512x1024 .bf16) (ix2 k d)
      = if h : t.val % 99 * 512 + k.val < 50257 then m ((c : Thread nD τ).loc main_arg1) (ix2 (⟨t.val % 99 * 512 + k.val, h⟩ : Fin 50257) d) else (0 : EReal) := by
  unfold iblk
  rw [View.read_apply]
  show V m c main_v2 _ = _
  rw [warr_eq]
  have e0 : ∀ y : S512x1024.Idx, ((((cfg0.win 1).blk t).view.emb y) (0 : Fin 2)).val = win0_1.index t 0 * 512 + 1 * (y 0).val := fun _ => rfl
  have e1 : ∀ y : S512x1024.Idx, ((((cfg0.win 1).blk t).view.emb y) (1 : Fin 2)).val = win0_1.index t 1 * 1024 + 1 * (y 1).val := fun _ => rfl
  by_cases h : t.val % 99 * 512 + k.val < 50257
  · rw [dif_pos h]
    refine (pad_apply_of_inside _ _ _ _ _ pads_S50257x1024_S50688x1024_04310_000 h_S_ _ (ix2 (⟨t.val % 99 * 512 + k.val, h⟩ : Fin 50257) d) (fun a => ?_)).trans rfl
    match a with
    | ⟨0, _⟩ => show win0_1.index t 0 * 512 + 1 * k.val = 0 + (t.val % 99 * 512 + k.val) * (0 + 1); rw [(idx_facts t).2.2.1]; omega
    | ⟨1, _⟩ => show win0_1.index t 1 * 1024 + 1 * d.val = 0 + d.val * (0 + 1); rw [(idx_facts t).2.2.2.1]; omega
  · rw [dif_neg h]
    refine (pad_apply_of_not_inside _ _ _ _ _ pads_S50257x1024_S50688x1024_04310_000 h_S_ _ (0 : Fin 2) (fun hin => h ?_)).trans ?_
    · have h3 := hin.2.2
      have e : (((((cfg0.win 1).blk t).view.emb (ix2 k d)) ((0 : Fin 2).cast pads_S50257x1024_S50688x1024_04310_000.1)).val) = win0_1.index t 0 * 512 + 1 * k.val := rfl
      rw [e, (idx_facts t).2.2.1] at h3
      have h4 : (t.val % 99 * 512 + 1 * k.val - 0) / (0 + 1) < 50257 := h3
      omega
    · show (((0#32 : BitVec 32).toInt : ℝ) : EReal) = 0
      simp

end Cert.KernelIdeal.Blocks
end
-- ==== Proof.OnlineLse.lean ====
/-
  The running log-sum-exp, one tile of 512 columns at a time.

  A row's logits are a sequence `a 0, a 1, …` of reals of which the first `V` count.  The kernel walks them in
  tiles of 512, columns past `V` masked to −∞, and carries a running maximum `m` and a running sum `l`:
      m' = max m (max of the tile),   l' = exp (m − m') · l + ∑ over the tile of exp (v − m').
  Whatever real number the running maximum is, `l = ∑ over the columns seen so far of exp (a k − m)`; so after
  the last tile  m + log l = log (∑ k < V, exp (a k)),  the shift cancelling.  Before the first tile the carried
  pair is (−∞, 0), and exp (−∞ − m') · 0 = 0.
-/
import Idealize.ShloMosaic.PureOps.Ideal
import Mathlib.Analysis.SpecialFunctions.Log.Basic
import Mathlib.Algebra.BigOperators.Fin

noncomputable section

namespace Cert.OnlineLse

open Idealize.ShloMosaic

variable (a : ℕ → ℝ) (V : ℕ)

/-- Column `k`'s term of the shifted sum: `exp (a k − μ)` for a column that counts, nothing past `V`. -/
def term (μ : ℝ) (k : ℕ) : ℝ := if k < V then Real.exp (a k - μ) else 0

/-- The shifted sum over the first `n` columns. -/
def psum (μ : ℝ) (n : ℕ) : ℝ := ∑ k ∈ Finset.range n, term a V μ k

/-- The tile that starts at column `n`, as the kernel sees it: columns past `V` read −∞. -/
def tile (n : ℕ) (k : Fin 512) : EReal := if n + k.val < V then ((a (n + k.val) : ℝ) : EReal) else ⊥

/-- What the kernel carries after `n` columns: (−∞, 0) before the first tile, afterwards a real running maximum
    `μ` and the sum shifted by it. -/
def Carried (n : ℕ) (m l : EReal) : Prop :=
  (n = 0 ∧ m = ⊥ ∧ l = 0) ∨ ∃ μ : ℝ, m = (μ : EReal) ∧ l = ((psum a V μ n : ℝ) : EReal)

/-! ### Small facts about the extended reals -/

/-- The embedding of the reals in the extended reals carries finite sums to finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty, EReal.coe_zero]
  | insert i s hi ih => rw [Finset.sum_insert hi, Finset.sum_insert hi, EReal.coe_add, ih]

/-- The embedding is monotone, so it carries the maximum of two reals to the maximum. -/
theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum, taken from −∞, of finitely many extended reals none of which is +∞ and one of which is not −∞
    is a real number: it is below +∞ because every entry is, and at least the entry that is not −∞. -/
theorem fold_max_coe {N : ℕ} (v : Fin N → EReal) (k0 : Fin N) (h0 : v k0 ≠ ⊥) (htop : ∀ k, v k ≠ ⊤) :
    ∃ ρ : ℝ, (Finset.univ : Finset (Fin N)).fold max ⊥ v = (ρ : EReal) := by
  have hlt : (Finset.univ : Finset (Fin N)).fold max ⊥ v < ⊤ :=
    (Finset.fold_max_lt _).2 ⟨bot_lt_top, fun k _ => lt_top_iff_ne_top.2 (htop k)⟩
  have hle : v k0 ≤ (Finset.univ : Finset (Fin N)).fold max ⊥ v :=
    (Finset.le_fold_max _).2 (Or.inr ⟨k0, Finset.mem_univ _, le_rfl⟩)
  have hbot : (Finset.univ : Finset (Fin N)).fold max ⊥ v ≠ ⊥ := fun h => h0 (le_bot_iff.1 (h ▸ hle))
  exact ⟨_, (EReal.coe_toReal hlt.ne hbot).symm⟩

/-! ### The shifted sums -/

/-- Changing the shift from `μ` to `μ'` multiplies every term, hence the sum, by `exp (μ − μ')`:
    `exp (μ − μ') · exp (a k − μ) = exp (a k − μ')`. -/
theorem psum_shift (μ μ' : ℝ) (n : ℕ) : Real.exp (μ - μ') * psum a V μ n = psum a V μ' n := by
  unfold psum
  rw [Finset.mul_sum]
  refine Finset.sum_congr rfl (fun k _ => ?_)
  unfold term
  split_ifs
  · rw [← Real.exp_add]; congr 1; ring
  · rw [mul_zero]

/-- The sum over `n + 512` columns is the sum over the first `n` and the sum over the tile that starts at `n`. -/
theorem psum_add (μ : ℝ) (n : ℕ) :
    psum a V μ (n + 512) = psum a V μ n + ∑ k ∈ Finset.range 512, term a V μ (n + k) :=
  Finset.sum_range_add _ _ _

/-- The kernel's sum over a tile, shifted by a real `μ`: a column past `V` reads −∞ and contributes
    `exp (−∞) = 0`; a column that counts contributes `exp (a (n+k) − μ)`. -/
theorem tile_sum (μ : ℝ) (n : ℕ) :
    ∑ k : Fin 512, Ideal.exp (tile a V n k - (μ : EReal))
      = ((∑ k ∈ Finset.range 512, term a V μ (n + k) : ℝ) : EReal) := by
  rw [coe_sum, ← Fin.sum_univ_eq_sum_range (fun k => ((term a V μ (n + k) : ℝ) : EReal)) 512]
  refine Finset.sum_congr rfl (fun k _ => ?_)
  unfold tile term
  split_ifs
  · rw [← EReal.coe_sub, Ideal.exp_coe]
  · rw [EReal.bot_sub, Ideal.exp_bot, EReal.coe_zero]

/-- Past the last column the shifted sum no longer grows, and it is `exp (−μ)` times the unshifted sum. -/
theorem psum_full (μ : ℝ) (n : ℕ) (hn : V ≤ n) :
    psum a V μ n = Real.exp (-μ) * ∑ k ∈ Finset.range V, Real.exp (a k) := by
  unfold psum
  rw [← Finset.sum_subset (Finset.range_mono hn) (fun k _ hk => by
      unfold term; rw [if_neg (fun h => hk (Finset.mem_range.2 h))]), Finset.mul_sum]
  refine Finset.sum_congr rfl (fun k hk => ?_)
  unfold term
  rw [if_pos (Finset.mem_range.1 hk), ← Real.exp_add]; congr 1; ring

/-- The unshifted sum of exponentials over at least one column is positive. -/
theorem sum_exp_pos (hV : 0 < V) : 0 < ∑ k ∈ Finset.range V, Real.exp (a k) :=
  Finset.sum_pos (fun _ _ => Real.exp_pos _) (Finset.nonempty_range_iff.2 hV.ne')

/-- The logarithm of the shifted full sum: `log (exp (−μ) · S) = −μ + log S` for `S > 0`. -/
theorem log_shifted (hV : 0 < V) (μ : ℝ) :
    Ideal.log ((Real.exp (-μ) * ∑ k ∈ Finset.range V, Real.exp (a k) : ℝ) : EReal)
      = ((-μ + Real.log (∑ k ∈ Finset.range V, Real.exp (a k)) : ℝ) : EReal) := by
  have hS := sum_exp_pos a V hV
  rw [Ideal.log_coe, if_neg (not_le.2 (mul_pos (Real.exp_pos _) hS)),
    Real.log_mul (Real.exp_ne_zero _) hS.ne', Real.log_exp]

/-- One tile keeps the carried pair in that form, 512 columns further on (the tile's first column counts, so the
    new maximum is a real number). -/
theorem carried_step (n : ℕ) (hn : n < V) (m l : EReal) (h : Carried a V n m l) (v : Fin 512 → EReal)
    (hv : ∀ k, v k = tile a V n k) :
    Carried a V (n + 512) (max m ((Finset.univ : Finset (Fin 512)).fold max ⊥ v))
      (Ideal.exp (m - max m ((Finset.univ : Finset (Fin 512)).fold max ⊥ v)) * l
        + ∑ k : Fin 512, Ideal.exp (v k - max m ((Finset.univ : Finset (Fin 512)).fold max ⊥ v))) := by
  obtain rfl : v = tile a V n := funext hv
  -- the tile's maximum is a real number ρ: its column 0 counts, and no entry is +∞
  obtain ⟨ρ, hρ⟩ := fold_max_coe (tile a V n) ⟨0, by norm_num⟩
    (by unfold tile; rw [if_pos (by simpa using hn)]; exact EReal.coe_ne_bot _)
    (fun k => by
      unfold tile; split_ifs
      · exact EReal.coe_ne_top _
      · exact bot_ne_top)
  rw [hρ]
  rcases h with ⟨rfl, rfl, rfl⟩ | ⟨μ, rfl, rfl⟩
  · -- before the first tile: max (−∞) ρ = ρ, and exp (−∞ − ρ) · 0 = 0
    refine Or.inr ⟨ρ, max_eq_right bot_le, ?_⟩
    rw [max_eq_right (bot_le : (⊥ : EReal) ≤ (ρ : EReal)), mul_zero, zero_add, tile_sum, psum_add]
    unfold psum
    rw [Finset.sum_range_zero, zero_add]
  · -- afterwards: the new maximum max μ ρ is real, and the old sum is rescaled to the new shift
    refine Or.inr ⟨max μ ρ, coe_max μ ρ, ?_⟩
    rw [coe_max, ← EReal.coe_sub, Ideal.exp_coe, ← EReal.coe_mul, tile_sum, ← EReal.coe_add, psum_shift, psum_add]

/-- After the last tile the shift cancels: `m + log l` is the log-sum-exp of the `V` columns. -/
theorem carried_finish (n : ℕ) (hV : 0 < V) (hn : V ≤ n) (m l : EReal) (h : Carried a V n m l) :
    m + Ideal.log l = ((Real.log (∑ k ∈ Finset.range V, Real.exp (a k)) : ℝ) : EReal) := by
  rcases h with ⟨h0, -, -⟩ | ⟨μ, rfl, rfl⟩
  · omega
  · rw [psum_full a V μ n hn, log_shifted a V hV, ← EReal.coe_add]
    congr 1; ring

/-- The reference's row: with any real shift `μ` (it takes the row's maximum), minus the label's log-probability is
    the log-sum-exp minus the label's logit. -/
theorem shifted_row (hV : 0 < V) (y : ℕ) (μ : ℝ) :
    -((((a y : ℝ) : EReal) - (μ : EReal))
        - Ideal.log (0 + ∑ k : Fin V, Ideal.exp (((a k.val : ℝ) : EReal) - (μ : EReal))))
      = ((Real.log (∑ k ∈ Finset.range V, Real.exp (a k)) - a y : ℝ) : EReal) := by
  have hsum : ∑ k : Fin V, Ideal.exp (((a k.val : ℝ) : EReal) - (μ : EReal))
      = ((Real.exp (-μ) * ∑ k ∈ Finset.range V, Real.exp (a k) : ℝ) : EReal) := by
    rw [← psum_full a V μ V le_rfl]
    unfold psum
    rw [coe_sum, ← Fin.sum_univ_eq_sum_range (fun k => ((term a V μ k : ℝ) : EReal)) V]
    refine Finset.sum_congr rfl (fun k _ => ?_)
    unfold term
    rw [if_pos k.isLt, ← EReal.coe_sub, Ideal.exp_coe]
  rw [zero_add, hsum, log_shifted a V hV, ← EReal.coe_sub, ← EReal.coe_sub, ← EReal.coe_neg]
  congr 1; ring

/-- The maximum of finitely many reals (at least one), taken from −∞, is a real number. -/
theorem fold_max_real {n : ℕ} (hn : 0 < n) (f : Fin n → ℝ) :
    ∃ μ : ℝ, max (⊥ : EReal) ((Finset.univ : Finset (Fin n)).fold max ⊥ (fun k => ((f k : ℝ) : EReal))) = (μ : EReal) := by
  obtain ⟨ρ, hρ⟩ := fold_max_coe (fun k => ((f k : ℝ) : EReal)) ⟨0, hn⟩ (EReal.coe_ne_bot _)
    (fun k => EReal.coe_ne_top _)
  exact ⟨ρ, by rw [hρ]; exact max_eq_right bot_le⟩

/-- A family indexed by `Fin V` as a sequence (zero past `V`). -/
def ofFin (f : Fin V → ℝ) : ℕ → ℝ := fun k => if h : k < V then f ⟨k, h⟩ else 0

theorem ofFin_val (f : Fin V → ℝ) (k : Fin V) : ofFin V f k.val = f k := by
  unfold ofFin; rw [dif_pos k.isLt]

/-- A sum over the first `V` terms of such a sequence is the sum over `Fin V`. -/
theorem sum_range_ofFin (f : Fin V → ℝ) (g : ℝ → ℝ) :
    ∑ k ∈ Finset.range V, g (ofFin V f k) = ∑ k : Fin V, g (f k) := by
  rw [← Fin.sum_univ_eq_sum_range (fun k => g (ofFin V f k)) V]
  exact Finset.sum_congr rfl (fun k _ => by rw [ofFin_val])

end Cert.OnlineLse

end
-- ==== Proof.LibRows.lean ====
/-
  Rows taken from, and rows added into, a two-dimensional table: `stablehlo.gather` and the accumulating
  `stablehlo.scatter` with one start index per row, read at an index.

  `table[idx]` over a table of N rows and K columns reads, at result position (e, q), the table's entry
  (r, q) where r is the e-th start index read as a signed integer and clamped into [0, N - 1].  The
  accumulating scatter with the same dimension numbers sends update (e, q) to table entry (r, q) where r
  is the e-th start index read signed and NOT clamped: the update is dropped when r is outside [0, N).
-/
import Idealize.ShloMosaic.PureOps.Ideal
import Idealize.ShloMosaic.Lib.ValueIdx
import Idealize.ShloMosaic.Lib.StableHlo.Predicate

noncomputable section

namespace Cert.LibRows

open Idealize.ShloMosaic Idealize.ShloMosaic.ValueIdx

/-- A start index read as a signed integer and clamped into the rows [0, N - 1] of a table. -/
def clampRow (N : Nat) (hN : 0 < N) {w : Nat} (b : BitVec w) : Fin N := ⟨min b.toInt.toNat (N - 1), by omega⟩

/-- A start index that, read signed, IS the row `r` clamps to `r`. -/
theorem clampRow_of_toInt {N : Nat} (hN : 0 < N) {w : Nat} (b : BitVec w) (r : Fin N) (h : b.toInt = (r.val : Int)) :
    clampRow N hN b = r := by
  apply Fin.ext
  show min b.toInt.toNat (N - 1) = r.val
  have hr := r.isLt
  rw [h, Int.toNat_natCast]
  omega

/-- Rows of a two-dimensional table taken at a column of start indices: result (e, q) is the table at
    (the e-th start index clamped, q). -/
theorem gather_rows_apply {α : Type} {N E K w : Nat} (hN : 0 < N)
    (d : GatherDims ⟨2, ![N, K]⟩ ⟨2, ![E, 1]⟩ ⟨2, ![E, K]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, K]⟩ : Shape).Idx → α) (idx : IVec ⟨2, ![E, 1]⟩ w) (e : Fin E) (q : Fin K) :
    Host.gather d x idx (ix2 e q) = x (ix2 (clampRow N hN (idx (ix2 e (0 : Fin 1)))) q) := by
  unfold Host.gather
  congr 1
  funext a
  have hb : ∀ a : Fin 2, a ∉ d.operandBatchingDims := fun a => by rw [hob]; exact List.not_mem_nil
  -- the result's batch axes are [0], its offset axes [1]
  have hbd : d.batchDims = [0] := by
    show Shape.kept _ d.offsetDims = [0]
    rw [hoff]; rfl
  have hbm : ∀ a ∈ d.batchDims, a = 0 := fun a ha => by
    rw [hbd] at ha; exact List.mem_singleton.mp ha
  have hom : ∀ a ∈ d.offsetDims, a = 1 := fun a ha => by
    rw [hoff] at ha; exact List.mem_singleton.mp ha
  have hb0 : ∀ (i : Nat) (hi : i < d.batchDims.length), d.batchDims[i] = 0 := fun i hi =>
    hbm _ (List.getElem_mem hi)
  have ho1 : ∀ (i : Nat) (hi : i < d.offsetDims.length), d.offsetDims[i] = 1 := fun i hi =>
    hom _ (List.getElem_mem hi)
  have c0 : ∀ a : Fin 2, a = 0 → ((ix2 e q) a).val = e.val := by rintro _ rfl; rfl
  have c1 : ∀ a : Fin 2, a = 1 → ((ix2 e q) a).val = q.val := by rintro _ rfl; rfl
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = _
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact c0 _ (hb0 _ _)
    | ⟨1, _⟩ =>
      unfold GatherDims.siIdx
      rw [dif_pos (by rw [hivd])]
      apply Fin.ext
      show List.idxOf (0 : Fin 2) d.startIndexMap = 0
      rw [hsim]; simp
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start GatherDims.offCoord
    rw [dif_neg hm, dif_pos hk, Nat.zero_add]
    exact c1 _ (ho1 _ _)

/-- Entries of a one-dimensional table taken at a column of start indices: result e is the table at the
    e-th start index clamped. -/
theorem gather_take_apply1 {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (clampRow N hN (idx (ix2 e (0 : Fin 1))))) := by
  -- the two spellings of a rank-1 index, and of row e of a one-column table, agree coordinate by coordinate
  have e1 : ∀ {n : Nat} (k : Fin n), (Shape.Idx.ofFin k : (⟨1, ![n]⟩ : Shape).Idx) = ix1 k := fun k => by
    funext a; match a with | ⟨0, _⟩ => rfl
  have e2 : StableHlo.Predicate.ixP e = ix2 e (0 : Fin 1) := by
    funext a; match a with | ⟨0, _⟩ => rfl | ⟨1, _⟩ => rfl
  rw [← e1 e, StableHlo.Predicate.gather_take d hcoll hob hsim hivd x idx e hN, e1]
  congr 2
  apply Fin.ext
  show min (idx (StableHlo.Predicate.ixP e)).toInt.toNat (N - 1) = min (idx (ix2 e (0 : Fin 1))).toInt.toNat (N - 1)
  rw [e2]

/-- Where update (e, q) of a row scatter lands: at table entry (r, q) exactly when the e-th start index,
    read signed, is the row r. -/
theorem scatter_rows_result {N E K w : Nat}
    (d : ScatterDims ⟨2, ![N, K]⟩ ⟨2, ![E, 1]⟩ ⟨2, ![E, K]⟩)
    (huw : d.updateWindowDims = [1]) (hiw : d.insertedWindowDims = [0]) (hsd : d.scatterDimsToOperandDims = [0])
    (hivd : d.indexVectorDim = 1)
    (idx : IVec ⟨2, ![E, 1]⟩ w) (e : Fin E) (q : Fin K) (r : Fin N) (q' : Fin K) :
    d.resultIdx? (ix2 e q) idx = some (ix2 r q') ↔ ((idx (ix2 e (0 : Fin 1))).toInt = (r.val : Int) ∧ q = q') := by
  have hin0 : (0 : Fin 2) ∈ d.scatterDimsToOperandDims := by rw [hsd]; exact List.mem_singleton.mpr rfl
  have hnin1 : (1 : Fin 2) ∉ d.scatterDimsToOperandDims := by rw [hsd]; simp
  have hk0 : (0 : Fin 2) ∉ d.sKept := by
    show (0 : Fin 2) ∉ Shape.kept _ d.insertedWindowDims
    rw [hiw]; simp [Shape.kept]
  have hk1 : (1 : Fin 2) ∈ d.sKept := by
    show (1 : Fin 2) ∈ Shape.kept _ d.insertedWindowDims
    rw [hiw]; simp [Shape.kept]
  -- the update's scatter axes are [0], its window axes [1]
  have hus : d.uScatter = [0] := by
    show Shape.kept _ d.updateWindowDims = [0]
    rw [huw]; rfl
  have husm : ∀ a ∈ d.uScatter, a = 0 := fun a ha => by rw [hus] at ha; exact List.mem_singleton.mp ha
  have huwm : ∀ a ∈ d.updateWindowDims, a = 1 := fun a ha => by rw [huw] at ha; exact List.mem_singleton.mp ha
  have c0 : ∀ a : Fin 2, a = 0 → ((ix2 e q) a).val = e.val := by rintro _ rfl; rfl
  have c1 : ∀ a : Fin 2, a = 1 → ((ix2 e q) a).val = q.val := by rintro _ rfl; rfl
  -- axis 0: the start is the e-th start index read signed, the window coordinate 0
  have hs0 : d.start (ix2 e q) idx 0 = (idx (ix2 e (0 : Fin 1))).toInt := by
    unfold ScatterDims.start
    rw [dif_pos hin0]
    congr 2
    funext b
    match b with
    | ⟨0, _⟩ =>
      unfold ScatterDims.siIdx
      rw [dif_neg (by rw [hivd]; simp)]
      unfold ScatterDims.siCoord
      apply Fin.ext
      simp only [Fin.val_cast]
      exact c0 _ (husm _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e q) 0 = 0 := by
    unfold ScatterDims.window; rw [dif_neg hk0]
  -- axis 1: the start is 0, the window coordinate q
  have hs1 : d.start (ix2 e q) idx 1 = 0 := by
    unfold ScatterDims.start; rw [dif_neg hnin1]
  have hw1 : d.window (ix2 e q) 1 = q.val := by
    unfold ScatterDims.window; rw [dif_pos hk1]
    exact c1 _ (huwm _ (List.getElem_mem _))
  have hr := r.isLt
  have hq := q.isLt
  have hq' := q'.isLt
  unfold ScatterDims.resultIdx?
  split
  · next h =>
    rw [Option.some.injEq]
    constructor
    · intro heq
      have h0 : (d.start (ix2 e q) idx 0 + d.window (ix2 e q) 0).toNat = r.val := congrArg (fun f => (f 0).val) heq
      have h1 : (d.start (ix2 e q) idx 1 + d.window (ix2 e q) 1).toNat = q'.val := congrArg (fun f => (f 1).val) heq
      have hh0 := (h 0).1
      rw [hs0, hw0] at h0 hh0
      rw [hs1, hw1] at h1
      exact ⟨by omega, Fin.ext (by omega)⟩
    · rintro ⟨hr', hqq⟩
      funext a
      match a with
      | ⟨0, _⟩ =>
        apply Fin.ext
        show (d.start (ix2 e q) idx 0 + d.window (ix2 e q) 0).toNat = r.val
        rw [hs0, hw0, hr']; omega
      | ⟨1, _⟩ =>
        apply Fin.ext
        show (d.start (ix2 e q) idx 1 + d.window (ix2 e q) 1).toNat = q'.val
        rw [hs1, hw1, hqq]; omega
  · next h =>
    constructor
    · intro heq; exact absurd heq (by simp)
    · rintro ⟨hr', hqq⟩
      exfalso; apply h
      intro a
      match a with
      | ⟨0, _⟩ =>
        show 0 ≤ d.start (ix2 e q) idx 0 + d.window (ix2 e q) 0 ∧ d.start (ix2 e q) idx 0 + d.window (ix2 e q) 0 < (N : Int)
        rw [hs0, hw0, hr']; omega
      | ⟨1, _⟩ =>
        show 0 ≤ d.start (ix2 e q) idx 1 + d.window (ix2 e q) 1 ∧ d.start (ix2 e q) idx 1 + d.window (ix2 e q) 1 < (K : Int)
        rw [hs1, hw1]; omega

end Cert.LibRows

end
-- ==== Proof.Spec.lean ====
/-
  The loss both programs compute, as one function of the three argument arrays.

  For row n of x and vocabulary row k of W the logit is the real number  L n k = ∑ d, x[n,d] · W[k,d].
  The cross-entropy of row n against its label y[n] is  log (∑ k, exp (L n k)) − L n y[n],  and the result is
  the mean of these over the 4096 rows.  Everything here is stated over the real parts of the entries: under
  the precondition every entry of x and W is a real number, and every label lies in [0, 50257).
-/
import Idealize.ShloMosaic.PureOps.Ideal
import Idealize.ShloMosaic.Lib.ValueIdx
import proofs.«428059_j5652176961787_2_alg».proof.Proof.LibRows

noncomputable section

namespace Cert.Spec

open Idealize.ShloMosaic Idealize.ShloMosaic.ValueIdx

abbrev SX : Shape := ⟨2, ![4096, 1024]⟩
abbrev SW : Shape := ⟨2, ![50257, 1024]⟩
abbrev SY : Shape := ⟨1, ![4096]⟩

/-- The logit of row `n` of `x` against row `k` of `W`, a real number. -/
def logit (x : SX.Idx → EReal) (W : SW.Idx → EReal) (n : Fin 4096) (k : Fin 50257) : ℝ :=
  ∑ d : Fin 1024, (x (ix2 n d)).toReal * (W (ix2 k d)).toReal

/-- The log-sum-exp of row `n`'s logits over the whole vocabulary. -/
def lse (x : SX.Idx → EReal) (W : SW.Idx → EReal) (n : Fin 4096) : ℝ :=
  Real.log (∑ k : Fin 50257, Real.exp (logit x W n k))

/-- Row `n`'s label: the word `y[n]` read as a signed integer (and clamped into the vocabulary, which under the
    precondition changes nothing). -/
def label (y : IVec SY 32) (n : Fin 4096) : Fin 50257 :=
  Cert.LibRows.clampRow 50257 (by decide) (y (ix1 n))

/-- The negative log-likelihood of each row: log-sum-exp minus the label's logit. -/
def nll (x : SX.Idx → EReal) (W : SW.Idx → EReal) (y : IVec SY 32) : SY.Idx → EReal :=
  fun i => ((lse x W (i 0) - logit x W (i 0) (label y (i 0)) : ℝ) : EReal)

/-- What the precondition gives: every entry of `x` and of `W` is a real number, every label is in range. -/
structure Admissible (x : SX.Idx → EReal) (W : SW.Idx → EReal) (y : IVec SY 32) : Prop where
  x_real : ∀ i, x i = ((x i).toReal : EReal)
  w_real : ∀ i, W i = ((W i).toReal : EReal)
  y_range : ∀ i, 0 ≤ (y i).toInt ∧ (y i).toInt < 50257

end Cert.Spec

end
-- ==== Proof.KernelInvariant.lean ====
/-
  What the two carried rows hold after every grid point, and what the last tile of a row block writes.

  Fix a row n of x.  Its logits against the vocabulary are real numbers (every entry of x and W is), and the
  vocabulary tiles of n's row block visit them 512 at a time.  After tile j the carried maximum of the row is a real
  number μ and the carried sum is ∑ over the columns seen so far of exp (logit − μ): by induction on the grid point,
  the first tile of a row block starting from (−∞, 0).  The last tile then writes μ + log (that sum over all 50257
  columns), which is the row's log-sum-exp whatever μ is.
-/
import proofs.«428059_j5652176961787_2_alg».proof.Proof.KernelPieces
import proofs.«428059_j5652176961787_2_alg».proof.Proof.KernelTile
import proofs.«428059_j5652176961787_2_alg».proof.Proof.KernelBlocks
import proofs.«428059_j5652176961787_2_alg».proof.Proof.OnlineLse
import proofs.«428059_j5652176961787_2_alg».proof.Proof.Spec

set_option maxRecDepth 16384

noncomputable section

open Idealize.ShloMosaic Idealize.ShloMosaic.TcCoe Idealize.SL.Sem
open Idealize.ShloMosaic.Pipeline (Dat)

namespace Cert.KernelIdeal.Invariant

open Cert.KernelIdeal Cert.KernelIdeal.Gen Idealize.ShloMosaic.ValueIdx
open Cert.KernelIdeal.Blocks (rowOf)

variable (m : (ℓ : Loc nD τ sig) → Buf (Elt Ideal) ℓ)

/-- x and W as the launch memory of core `c` holds them. -/
abbrev xA (c : Dev nD) : Cert.Spec.SX.Idx → EReal := m ((c : Thread nD τ).loc main_arg0)
abbrev wA (c : Dev nD) : Cert.Spec.SW.Idx → EReal := m ((c : Thread nD τ).loc main_arg1)

/-- Row `n`'s logits as a sequence (zero past the vocabulary). -/
def logits (c : Dev nD) (n : Fin 4096) : ℕ → ℝ := Cert.OnlineLse.ofFin 50257 (Cert.Spec.logit (xA m c) (wA m c) n)

/-- Every entry of x and of W is a real number. -/
structure RealArgs (c : Dev nD) : Prop where
  x_real : ∀ i, xA m c i = ((xA m c i).toReal : EReal)
  w_real : ∀ i, wA m c i = ((wA m c i).toReal : EReal)

/-- The masked logits of row `r` at grid point `t` are the tile of the row's logit sequence that starts at column
    512 · (t % 99): a dot product of real entries where the column counts, −∞ past the vocabulary. -/
theorem tile_eq (c : Dev nD) (hr : RealArgs m c) (t : Fin cfg0.N) (r : Fin 2048) (k : Fin 512) :
    k0_pay5 (F := Ideal) (grid0.coords t) (iblk m c 0 t) (iblk m c 1 t) (ix2 r k)
      = Cert.OnlineLse.tile (logits m c (rowOf t r)) 50257 (t.val % 99 * 512) k := by
  rw [Cert.KernelIdeal.Tile.masked_apply, (Cert.KernelIdeal.Blocks.coords_facts t).2]
  unfold Cert.OnlineLse.tile
  by_cases h : t.val % 99 * 512 + k.val < 50257
  · rw [if_pos h, if_pos h]
    unfold logits Cert.OnlineLse.ofFin
    rw [dif_pos h]
    unfold Cert.Spec.logit
    rw [Cert.OnlineLse.coe_sum]
    refine Finset.sum_congr rfl fun d _ => ?_
    rw [Cert.KernelIdeal.Blocks.xblk_apply, Cert.KernelIdeal.Blocks.wblk_apply, dif_pos h, EReal.coe_mul]
    exact congrArg₂ (· * ·) (hr.x_real _) (hr.w_real _)
  · rw [if_neg h, if_neg h]

/-- One tile's update of row `r`: from a carried pair in the running form over the columns before the tile to the
    running form 512 columns further on. -/
theorem update (c : Dev nD) (hr : RealArgs m c) (t : Fin cfg0.N) (r : Fin 2048) (v19 v27 : Vec Ideal S2048x1 .f32)
    (hC : Cert.OnlineLse.Carried (logits m c (rowOf t r)) 50257 (t.val % 99 * 512)
      (v19 (ix2 r (0 : Fin 1))) (v27 (ix2 r (0 : Fin 1)))) :
    Cert.OnlineLse.Carried (logits m c (rowOf t r)) 50257 ((t.val % 99 + 1) * 512)
      (k0_pay1 (F := Ideal) (k0_pay6 (F := Ideal) (grid0.coords t) (iblk m c 0 t) (iblk m c 1 t) v19) (ix2 r (0 : Fin 1)))
      (k0_pay7 (F := Ideal) (grid0.coords t) (iblk m c 0 t) (iblk m c 1 t) v19 v19 v27 (ix2 r (0 : Fin 1))) := by
  rw [Cert.KernelIdeal.Tile.stored_max_eq, Cert.KernelIdeal.Tile.newsum_apply, Cert.KernelIdeal.Tile.newmax_apply]
  have hlt : t.val % 99 * 512 < 50257 := by have := Nat.mod_lt t.val (show 0 < 99 by decide); omega
  have hs := Cert.OnlineLse.carried_step (logits m c (rowOf t r)) 50257 (t.val % 99 * 512) hlt _ _ hC
    (fun k => k0_pay5 (F := Ideal) (grid0.coords t) (iblk m c 0 t) (iblk m c 1 t) (ix2 r k)) (fun k => tile_eq m c hr t r k)
  rw [show (t.val % 99 + 1) * 512 = t.val % 99 * 512 + 512 by ring]
  exact hs

/-- After every grid point, row by row: the carried maximum is a real number and the carried sum is the sum, over the
    columns of the vocabulary tiles seen so far in this row block, of exp (logit − maximum). -/
theorem carried (c : Dev nD) (hr : RealArgs m c) : ∀ (n : ℕ) (hn : n < cfg0.N) (r : Fin 2048),
    Cert.OnlineLse.Carried (logits m c (rowOf ⟨n, hn⟩ r)) 50257 ((n % 99 + 1) * 512)
      ((outsAt0 m c n hn).2.1 (ix2 r (0 : Fin 1))) ((outsAt0 m c n hn).2.2 (ix2 r (0 : Fin 1))) := by
  intro n
  induction n with
  | zero =>
    intro hn r
    have h0 : (⟨0, hn⟩ : Fin cfg0.N).val % 99 = 0 := rfl
    have h1 : ¬(⟨0, hn⟩ : Fin cfg0.N).val % 99 = 98 := (by decide : ¬(0 : ℕ) % 99 = 98)
    rw [outsAt0_A m c ⟨0, hn⟩ h0 h1]
    dsimp only
    rw [Cert.KernelIdeal.Pieces.carriedMax_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩) (iblk m c 1 ⟨0, hn⟩),
      Cert.KernelIdeal.Pieces.carriedSum_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr h0) (fun h => h1 ((hcond0_1 ⟨0, hn⟩).mp h)) (iblk m c 0 ⟨0, hn⟩) (iblk m c 1 ⟨0, hn⟩)]
    exact update m c hr ⟨0, hn⟩ r (k0_pay3 (F := Ideal)) (k0_pay4 (F := Ideal))
      (Or.inl ⟨(by decide : (0 : ℕ) % 99 * 512 = 0), Cert.KernelIdeal.Tile.reset_max_apply _, Cert.KernelIdeal.Tile.reset_sum_apply _⟩)
  | succ n ih =>
    intro hn r
    have hN : n + 1 < 198 := lt_of_lt_of_eq hn N_0
    by_cases h0 : (⟨n + 1, hn⟩ : Fin cfg0.N).val % 99 = 0
    · have h1 : ¬(⟨n + 1, hn⟩ : Fin cfg0.N).val % 99 = 98 := by dsimp only at h0 ⊢; omega
      rw [outsAt0_A m c ⟨n + 1, hn⟩ h0 h1]
      dsimp only
      rw [Cert.KernelIdeal.Pieces.carriedMax_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩),
        Cert.KernelIdeal.Pieces.carriedSum_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)]
      exact update m c hr ⟨n + 1, hn⟩ r (k0_pay3 (F := Ideal)) (k0_pay4 (F := Ideal))
        (Or.inl ⟨by dsimp only at h0 ⊢; rw [h0], Cert.KernelIdeal.Tile.reset_max_apply _, Cert.KernelIdeal.Tile.reset_sum_apply _⟩)
    · have hprev : Cert.OnlineLse.Carried (logits m c (rowOf ⟨n + 1, hn⟩ r)) 50257 ((⟨n + 1, hn⟩ : Fin cfg0.N).val % 99 * 512)
          ((outsAt0 m c ((⟨n + 1, hn⟩ : Fin cfg0.N).val - 1) (Nat.lt_of_le_of_lt (Nat.sub_le _ _) (⟨n + 1, hn⟩ : Fin cfg0.N).isLt)).2.1 (ix2 r (0 : Fin 1)))
          ((outsAt0 m c ((⟨n + 1, hn⟩ : Fin cfg0.N).val - 1) (Nat.lt_of_le_of_lt (Nat.sub_le _ _) (⟨n + 1, hn⟩ : Fin cfg0.N).isLt)).2.2 (ix2 r (0 : Fin 1))) := by
        have ihr := ih (Nat.lt_of_succ_lt hn) r
        have e1 : rowOf ⟨n, Nat.lt_of_succ_lt hn⟩ r = rowOf ⟨n + 1, hn⟩ r := Fin.ext (by
          show n / 99 * 2048 + r.val = (n + 1) / 99 * 2048 + r.val
          dsimp only at h0; omega)
        have e2 : (n % 99 + 1) * 512 = (n + 1) % 99 * 512 := by dsimp only at h0; omega
        rw [e1, e2] at ihr
        exact ihr
      by_cases h1 : (⟨n + 1, hn⟩ : Fin cfg0.N).val % 99 = 98
      · rw [outsAt0_C m c ⟨n + 1, hn⟩ h0 h1]
        dsimp only
        rw [Cert.KernelIdeal.Pieces.carriedMax_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2,
          Cert.KernelIdeal.Pieces.carriedSum_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2]
        exact update m c hr ⟨n + 1, hn⟩ r _ _ hprev
      · rw [outsAt0_B m c ⟨n + 1, hn⟩ h0 h1]
        dsimp only
        rw [Cert.KernelIdeal.Pieces.carriedMax_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2,
          Cert.KernelIdeal.Pieces.carriedSum_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 m c ((⟨n + 1, hn⟩ : Fin cfg0.N).val - 1) (Nat.lt_of_le_of_lt (Nat.sub_le _ _) (⟨n + 1, hn⟩ : Fin cfg0.N).isLt)).2.1 (outsAt0 m c ((⟨n + 1, hn⟩ : Fin cfg0.N).val - 1) (Nat.lt_of_le_of_lt (Nat.sub_le _ _) (⟨n + 1, hn⟩ : Fin cfg0.N).isLt)).2.2]
        exact update m c hr ⟨n + 1, hn⟩ r _ _ hprev

end Cert.KernelIdeal.Invariant
end
-- ==== Proof.KernelValue.lean ====
/-
  The region's result array: every row's log-sum-exp.

  The last vocabulary tile of a row block (grid points 98 and 197) writes, for each of the block's 2048 rows, the
  carried maximum plus the logarithm of the carried sum.  By then the carried pair is in the running form over all
  99 · 512 = 50688 columns, of which the first 50257 count, so what is written is the log-sum-exp of the row's 50257
  logits: the shift by the maximum cancels.  Only these two points write the output window back, their two blocks
  of 2048 rows are the two halves of the [4096, 1] result, and so after the region the result array holds the
  log-sum-exp of every row.
-/
import proofs.«428059_j5652176961787_2_alg».proof.Proof.KernelInvariant

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx
open Cert.KernelIdeal.Blocks (rowOf)
open Cert.KernelIdeal.Invariant

variable (m : (ℓ : Loc nD τ sig) → Buf (Elt Ideal) ℓ)

/-- Before a tile that is not the first of its row block, the carried pair is in the running form over the columns
    of the tiles before it: this is what the tile before left (same row block, one tile earlier). -/
theorem carried_before (c : Dev nD) (hr : RealArgs m c) (t : Fin cfg0.N) (h0 : ¬t.val % 99 = 0) (r : Fin 2048) :
    Cert.OnlineLse.Carried (logits m c (rowOf t r)) 50257 (t.val % 99 * 512)
      ((outsAt0 m c (t.val - 1) (Nat.lt_of_le_of_lt (Nat.sub_le _ _) t.isLt)).2.1 (ix2 r (0 : Fin 1)))
      ((outsAt0 m c (t.val - 1) (Nat.lt_of_le_of_lt (Nat.sub_le _ _) t.isLt)).2.2 (ix2 r (0 : Fin 1))) := by
  obtain ⟨n, hn⟩ := t
  cases n with
  | zero => exact absurd (Nat.zero_mod 99) h0
  | succ n =>
    have hN : n + 1 < 198 := lt_of_lt_of_eq hn N_0
    have ihr := carried m c hr n (Nat.lt_of_succ_lt hn) r
    have e1 : rowOf ⟨n, Nat.lt_of_succ_lt hn⟩ r = rowOf ⟨n + 1, hn⟩ r := Fin.ext (by
      show n / 99 * 2048 + r.val = (n + 1) / 99 * 2048 + r.val
      dsimp only at h0; omega)
    have e2 : (n % 99 + 1) * 512 = (n + 1) % 99 * 512 := by dsimp only at h0; omega
    rw [e1, e2] at ihr
    exact ihr

/-- What the last tile of a row block writes for row `r`: the row's log-sum-exp over the whole vocabulary. -/
theorem written (c : Dev nD) (hr : RealArgs m c) (t : Fin cfg0.N) (h1 : t.val % 99 = 98) (r : Fin 2048) :
    (outsAt0 m c t.val t.isLt).1 (ix2 r (0 : Fin 1))
      = ((Cert.Spec.lse (xA m c) (wA m c) (rowOf t r) : ℝ) : EReal) := by
  have h0 : ¬t.val % 99 = 0 := by omega
  rw [outsAt0_C m c t h0 h1]
  dsimp only
  rw [Cert.KernelIdeal.Pieces.written_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2]
  rw [Cert.KernelIdeal.Tile.written_apply]
  -- the pair the tile leaves is in the running form over all 99 tiles' columns
  have hu := update m c hr t r _ _ (carried_before m c hr t h0 r)
  rw [h1] at hu
  refine (Cert.OnlineLse.carried_finish (logits m c (rowOf t r)) 50257 ((98 + 1) * 512) (by decide) (by decide) _ _ hu).trans ?_
  -- the sum over the first 50257 terms of the row's logit sequence is the sum over the vocabulary
  show ((Real.log (∑ k ∈ Finset.range 50257, Real.exp (Cert.OnlineLse.ofFin 50257 (Cert.Spec.logit (xA m c) (wA m c) (rowOf t r)) k)) : ℝ) : EReal) = _
  rw [Cert.OnlineLse.sum_range_ofFin 50257 _ Real.exp]
  rfl

/-- The same, at any index of the output block. -/
theorem written_block (c : Dev nD) (hr : RealArgs m c) (t : Fin cfg0.N) (h1 : t.val % 99 = 98) (j : S2048x1.Idx) :
    (outsAt0 m c t.val t.isLt).1 j = ((Cert.Spec.lse (xA m c) (wA m c) (rowOf t (j 0)) : ℝ) : EReal) := by
  obtain ⟨r, q, rfl⟩ : ∃ (r : Fin 2048) (q : Fin 1), j = ix2 r q := ⟨j 0, j 1, eq_ix2 j⟩
  obtain rfl : q = 0 := Subsingleton.elim _ _
  exact written m c hr t h1 r

/-- The result array the region leaves: row `n` holds the log-sum-exp of row `n`'s logits. -/
def lseArr (c : Dev nD) : Buf (Elt Ideal) ((c : Thread nD τ).loc main_v3) :=
  fun (i : S4096x1.Idx) => ((Cert.Spec.lse (xA m c) (wA m c) (i 0) : ℝ) : EReal)

/-- A write-back of the output window writes the corresponding 2048 rows of that array: row `r` of the block of
    grid point `t` is row `2048 · (t / 99) + r` of the result. -/
theorem flushed_eq (c : Dev nD) (hr : RealArgs m c) (t : Fin cfg0.N) (hf : (cfg0.win 2).flush t = true) :
    (dats m 0 c).flushed 2 t = ((cfg0.win 2).blk t).view.read (Elt Ideal) (lseArr m c) := by
  have h1 : t.val % 99 = 98 := (flush0_2 t).mp hf
  show (cfg0.win 2).cut (grid0.coords t) ((dats m 0 c).after 2 t) = _
  rw [after0_2]
  funext j
  show (outsAt0 m c t.val t.isLt).1 j = lseArr m c (((cfg0.win 2).blk t).view.emb j)
  rw [written_block m c hr t h1]
  refine congrArg (fun n : Fin 4096 => ((Cert.Spec.lse (xA m c) (wA m c) n : ℝ) : EReal)) ?_
  apply Fin.ext
  show t.val / 99 * 2048 + (j 0).val = win0_2.index t (0 : Fin 2) * 2048 + 1 * (j 0).val
  rw [(Cert.KernelIdeal.Blocks.idx_facts t).2.2.2.2.1]
  omega

/-- An index of the result lies in the block of grid point `t` iff each coordinate is in the block's range. -/
theorem mem_blk (t : Fin cfg0.N) (i : S4096x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v3).slice (win0_2.rect t)).set ↔ _
  rw [View.set_slice_whole, Rect.mem_set_unit]
  exact Iff.rfl

/-- Every row of the result is written back: row `n` by the last tile of row block `n / 2048`. -/
theorem cover (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  have hN : cfg0.N = 198 := N_0
  obtain ⟨t, ht⟩ : ∃ t : Fin cfg0.N, t.val = (i 0).val / 2048 * 99 + 98 := ⟨⟨(i 0).val / 2048 * 99 + 98, by omega⟩, rfl⟩
  refine ⟨t, (flush0_2 t).mpr (by omega), ?_⟩
  rw [mem_blk]
  have e0 := (Cert.KernelIdeal.Blocks.idx_facts t).2.2.2.2.1
  have e1 := (Cert.KernelIdeal.Blocks.idx_facts t).2.2.2.2.2
  intro a
  match a with
  | ⟨0, _⟩ =>
    show win0_2.index t (0 : Fin 2) * 2048 ≤ (i 0).val ∧ (i 0).val < win0_2.index t (0 : Fin 2) * 2048 + 2048
    rw [e0]; omega
  | ⟨1, _⟩ =>
    show win0_2.index t (1 : Fin 2) * 1 ≤ (i 1).val ∧ (i 1).val < win0_2.index t (1 : Fin 2) * 1 + 1
    rw [e1]; omega

/-- After the region the result array holds every row's log-sum-exp. -/
theorem final (c : Dev nD) (hr : RealArgs m c) : (dats m 0 c).arrAt 2 cfg0.N = lseArr m c :=
  (dats m 0 c).arrAt_eq_of_cover 2 (lseArr m c) (fun t hf => flushed_eq m c hr t hf) (cover)

end Cert.KernelIdeal.KValue
end
-- ==== Proof.KernelTail.lean ====
/-
  The host operations after the region: the mean of the rows' losses.

  When the region is left its output column holds, row by row, the log-sum-exp of the row's logits.  The operations
  that follow take, for each row n, the sum over d of x[n,d] · W[y[n],d] (x and W first changed in float format, which
  changes no value; a negative label moved up by the vocabulary size, which under the precondition no label is; the
  row of W taken at the label clamped into the vocabulary, which under the precondition changes nothing), subtract it
  from the row's log-sum-exp, and average the 4096 differences: the sum from 0 divided by 4096.  Under the
  precondition every entry is a real number, so each difference is the specification's row loss
  lse n − logit n y[n], and the result is the mean of those.
-/
import proofs.«428059_j5652176961787_2_alg».proof.Proof.KernelBlocks
import proofs.«428059_j5652176961787_2_alg».proof.Proof.Spec
import Idealize.ShloMosaic.Lib.StableHlo.Run
import Idealize.ShloMosaic.Lib.Pipeline.Value
import Idealize.ShloMosaic.Lib.Pipeline.FrameSuffix
import Idealize.ShloMosaic.Lib.ValueIdx
import Idealize.ShloMosaic.PureOps.Ideal.Laws
import Mathlib.Data.EReal.Basic
import Mathlib.Data.EReal.Operations
set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.ValueIdx Idealize.ShloMosaic.StableHlo

/-! ## The tail's vector of row losses, as a function of its four arrays -/

/-- The labels as the tail reads them: a negative one moved up by the vocabulary size. -/
def wrapY (y : IVec S4096 32) : IVec S4096 32 :=
  select (cmpi .slt y (broadcastInDim S4096 ![] bcast_S_S4096 (constantI S_ 32 0#32)))
    (addi y (broadcastInDim S4096 ![] bcast_S_S4096 (constantI S_ 32 50257#32))) y

/-- A label that is not negative is left as it is. -/
theorem wrapY_apply (y : IVec S4096 32) (n : Fin 4096) (h : 0 ≤ (y (ix1 n)).toInt) : wrapY y (ix1 n) = y (ix1 n) := by
  show Scalar.select (IntOp.cmpi .slt (y (ix1 n)) 0#32) (IntOp.addi (y (ix1 n)) 50257#32) (y (ix1 n)) = y (ix1 n)
  have h0 : IntOp.cmpi .slt (y (ix1 n)) 0#32 = 0#1 := by
    show BitVec.ofBool ((y (ix1 n)).slt 0#32) = 0#1
    have hs : (y (ix1 n)).slt 0#32 = false := by
      rw [BitVec.slt_eq_decide]
      simp only [BitVec.toInt_zero, decide_eq_false_iff_not, not_lt]
      exact h
    rw [hs]; rfl
  rw [h0, select_zero]

/-- Each row's product with its label's row of W, summed along the row (from the constant 0). -/
def rowDot (x : FVec Ideal S4096x1024 .bf16) (W : FVec Ideal S50257x1024 .bf16) (y : IVec S4096 32) : FVec Ideal S4096 .f32 :=
  Host.reduceAdd (F := Ideal)
    (mulf (extf .f32 x bitsLt_bf16_f32)
      (extf .f32 (Host.gather gather_S50257x1024_S4096x1_S4096x1024_1_0_n_n_0_1_11024 W
        (broadcastInDim S4096x1 ![0] bcast_S4096_S4096x1_0 (wrapY y))) bitsLt_bf16_f32))
    (constant (F := Ideal) S_ .f32 0x00000000#32) reducesTo_S4096x1024_S4096_d1 h_S_

/-- A column made of a vector reads the vector's entry of its row. -/
theorem col_apply {α : Type} (v : S4096.Idx → α) (n : Fin 4096) :
    broadcastInDim S4096x1 ![0] bcast_S4096_S4096x1_0 v (ix2 n (0 : Fin 1)) = v (ix1 n) :=
  broadcastInDim_apply _ bcast_S4096_S4096x1_0 v (ix2 n (0 : Fin 1)) (ix1 n) (fun a => by
    match a with
    | ⟨0, _⟩ => show n.val = if (4096 : ℕ) = 1 then 0 else n.val; rw [if_neg (by decide)])

/-- Row n of that sum: 0 plus the sum over the row of x[n,d] · W[clamped label, d]. -/
theorem rowDot_apply (x : FVec Ideal S4096x1024 .bf16) (W : FVec Ideal S50257x1024 .bf16) (y : IVec S4096 32) (n : Fin 4096) :
    rowDot x W y (ix1 n)
      = 0 + ∑ d : Fin 1024, x (ix2 n d) * W (ix2 (Cert.LibRows.clampRow 50257 (by decide) (wrapY y (ix1 n))) d) := by
  have hR : S4096x1024.Reduces [1] S4096 := by decide
  show Ideal.hostReduceAdd reducesTo_S4096x1024_S4096_d1 _ (Ideal.ofBits .f32 0x00000000#32) (ix1 n) = _
  rw [Ideal.hostReduceAdd_single reducesTo_S4096x1024_S4096_d1 hR, Ideal.ofBits_zero_f32]
  refine congrArg (fun s : EReal => 0 + s) (Finset.sum_congr rfl fun d _ => ?_)
  have hl : hR.lift (ix1 n) d = ix2 n d := by
    funext a
    match a with
    | ⟨0, _⟩ => exact Fin.ext rfl
    | ⟨1, _⟩ => exact Fin.ext rfl
  rw [hl]
  show x (ix2 n d) * Host.gather gather_S50257x1024_S4096x1_S4096x1024_1_0_n_n_0_1_11024 W
        (broadcastInDim S4096x1 ![0] bcast_S4096_S4096x1_0 (wrapY y)) (ix2 n d) = _
  rw [Cert.LibRows.gather_rows_apply (by decide) gather_S50257x1024_S4096x1_S4096x1024_1_0_n_n_0_1_11024 rfl rfl rfl rfl rfl rfl W _ n d,
    col_apply]

/-- The vector the tail sums: the region's column minus the row sums, as a vector. -/
def tailVec (L : FVec Ideal S4096x1 .f32) (x : FVec Ideal S4096x1024 .bf16) (W : FVec Ideal S50257x1024 .bf16) (y : IVec S4096 32) :
    FVec Ideal S4096 .f32 :=
  shapeCast S4096 (subf L (broadcastInDim S4096x1 ![0] bcast_S4096_S4096x1_0 (rowDot x W y))) shapeCasts_S4096x1_S4096

/-- Its entry n: the column's entry of row n minus row n's sum. -/
theorem tailVec_apply (L : FVec Ideal S4096x1 .f32) (x : FVec Ideal S4096x1024 .bf16) (W : FVec Ideal S50257x1024 .bf16) (y : IVec S4096 32)
    (n : Fin 4096) : tailVec L x W y (ix1 n) = L (ix2 n (0 : Fin 1)) - rowDot x W y (ix1 n) := by
  unfold tailVec
  refine (shapeCast_apply _ shapeCasts_S4096x1_S4096 (ix1 n) (ix2 n (0 : Fin 1)) ?_).trans ?_
  · rw [Shape.rowMajor_val_two, Shape.rowMajor_val_one]
    show n.val * 1 + 0 = n.val
    omega
  · show L (ix2 n (0 : Fin 1)) - broadcastInDim S4096x1 ![0] bcast_S4096_S4096x1_0 (rowDot x W y) (ix2 n (0 : Fin 1)) = _
    rw [col_apply]

/-! ## The vector is the row losses of the specification -/

/-- A finite sum of real numbers, read in the extended reals, is the sum of the readings. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- With the region's column holding the rows' log-sum-exps, and x and W only changed in float format, entry n of the
    tail's vector is  lse n − ∑ d, x[n,d] · W[y[n], d]: the labels are in range, so none is moved or clamped, and all
    entries are real numbers, so the extended-real arithmetic is the real one. -/
theorem vec_eq (x : FVec Ideal S4096x1024 .f32) (W : FVec Ideal S50257x1024 .f32) (y : IVec S4096 32)
    (hadm : Cert.Spec.Admissible x W y)
    (L : FVec Ideal S4096x1 .f32) (xb : FVec Ideal S4096x1024 .bf16) (Wb : FVec Ideal S50257x1024 .bf16) (yb : IVec S4096 32)
    (hL : L = fun i => ((Cert.Spec.lse x W (i 0) : ℝ) : EReal))
    (hx : xb = truncf (F := Ideal) .bf16 x bitsLt_bf16_f32) (hW : Wb = truncf (F := Ideal) .bf16 W bitsLt_bf16_f32) (hy : yb = y) :
    tailVec L xb Wb yb = Cert.Spec.nll x W y := by
  subst hx hW hy
  funext i
  obtain ⟨n, rfl⟩ : ∃ n : Fin 4096, i = ix1 n := ⟨i 0, eq_ix1 i⟩
  rw [tailVec_apply, rowDot_apply, wrapY_apply yb n (hadm.y_range (ix1 n)).1, hL]
  show ((Cert.Spec.lse x W n : ℝ) : EReal) - (0 + ∑ d : Fin 1024, x (ix2 n d) * W (ix2 (Cert.Spec.label yb n) d))
    = ((Cert.Spec.lse x W n - Cert.Spec.logit x W n (Cert.Spec.label yb n) : ℝ) : EReal)
  rw [zero_add, EReal.coe_sub]
  congr 1
  unfold Cert.Spec.logit
  rw [coe_sum]
  refine Finset.sum_congr rfl fun d _ => ?_
  rw [EReal.coe_mul, ← hadm.x_real, ← hadm.w_real]

/-! ## The tail's result as that vector's mean -/

/-- The mean of a vector of 4096 entries as the tail takes it: the sum from 0, divided by 4096. -/
abbrev tailMean (v : FVec Ideal S4096 .f32) : FVec Ideal S_ .f32 :=
  Host.divf (F := Ideal) (Host.reduceAdd (F := Ideal) v (constant (F := Ideal) S_ .f32 0x00000000#32) reducesTo_S4096_S_d0 h_S_)
    (constant (F := Ideal) S_ .f32 0x45800000#32)

variable (m : (ℓ : Loc nD τ sig) → Buf (Elt Ideal) ℓ)

/-- The W array the tail gathers from, as the host operations before the region leave it: W itself (a change of float
    format is the identity). -/
theorem w1arr_eq (c : Dev nD) :
    (V m c main_v1 : S50257x1024.Idx → EReal) = truncf (F := Ideal) .bf16 (m ((c : Thread nD τ).loc main_arg1)) bitsLt_bf16_f32 := by
  dsimp only [Gen.V, Gen.V0]
  simp only [Gen.hostOps0, Gen.hostOps0_1, List.flatten_cons, List.flatten_nil, List.append_nil, List.cons_append, List.nil_append]
  after_results
  all_goals rfl

/-- What a buffer holds when the region is left: a pipeline array what the region leaves in it, any other buffer what
    the region found in it. -/
abbrev exitAt (c : Dev nD) (b : Ref sig .tc) : Buf (Elt Ideal) ((c : Thread nD τ).loc b) :=
  Pipeline.withArrays (cfgs 0).spec c (V0 m c) (fun w => (dats m 0 c).arrAt w (cfgs 0).N) (Proc.devRef .tc b)

/-- The tail's result is the mean of its vector, taken at the four arrays the tail reads as the region leaves them. -/
theorem tail_term (c : Dev nD) :
    Pipeline.afterTail₀ cfgs (dats m) 0 (V0 m) [hostOps1] c main_v19
      = tailMean (tailVec (exitAt m c main_v3) (exitAt m c main_v0) (exitAt m c main_v1) (exitAt m c main_arg2)) := by
  unfold Pipeline.afterTail₀
  simp only [hostOps1, List.flatten_cons, List.flatten_nil, List.append_nil, List.cons_append, List.nil_append]
  after_results_simp
  rfl

/-- The region's output column at exit: given as the rows' log-sum-exps. -/
theorem exit_v3 (c : Dev nD)
    (hfin : (dats m 0 c).arrAt 2 cfg0.N = fun i => ((Cert.Spec.lse (m ((c : Thread nD τ).loc main_arg0)) (m ((c : Thread nD τ).loc main_arg1)) (i 0) : ℝ) : EReal)) :
    (exitAt m c main_v3 : S4096x1.Idx → EReal)
      = fun i => ((Cert.Spec.lse (m ((c : Thread nD τ).loc main_arg0)) (m ((c : Thread nD τ).loc main_arg1)) (i 0) : ℝ) : EReal) :=
  (Pipeline.withArrays_arr spec0 launch0.win.arr_inj c _ _ 2).trans hfin

/-- x at exit: an array the region only reads, so as the region found it, which is x itself. -/
theorem exit_v0 (c : Dev nD) :
    (exitAt m c main_v0 : S4096x1024.Idx → EReal) = truncf (F := Ideal) .bf16 (m ((c : Thread nD τ).loc main_arg0)) bitsLt_bf16_f32 :=
  (Pipeline.withArrays_arr spec0 launch0.win.arr_inj c _ _ 0).trans
    (((dats m 0 c).arrAt_in 0 rfl cfg0.N).trans ((A_eq m c 0).trans (Blocks.xarr_eq m c)))

/-- W at exit: not an array of the region, so as the region found it, which is W itself. -/
theorem exit_v1 (c : Dev nD) :
    (exitAt m c main_v1 : S50257x1024.Idx → EReal) = truncf (F := Ideal) .bf16 (m ((c : Thread nD τ).loc main_arg1)) bitsLt_bf16_f32 :=
  (Pipeline.withArrays_of_ne _ c (V0 m c) _ main_v1 (by exact (by decide : ∀ w, Pipeline.arrRef spec0 w ≠ main_v1))).trans
    (w1arr_eq m c)

/-- The labels at exit: as launched. -/
theorem exit_arg2 (c : Dev nD) : exitAt m c main_arg2 = m ((c : Thread nD τ).loc main_arg2) :=
  (Pipeline.withArrays_of_ne _ c (V0 m c) _ main_arg2 (by exact (by decide : ∀ w, Pipeline.arrRef spec0 w ≠ main_arg2))).trans
    (Gen.V_main_arg2 m c)

/-- THE TAIL: given that the region leaves the rows' log-sum-exps in its output column, the program's result is the mean
    of the specification's row losses. -/
theorem tail_eq (c : Dev nD)
    (hadm : Cert.Spec.Admissible (m ((c : Thread nD τ).loc main_arg0)) (m ((c : Thread nD τ).loc main_arg1)) (m ((c : Thread nD τ).loc main_arg2)))
    (hfin : (dats m 0 c).arrAt 2 cfg0.N = fun i => ((Cert.Spec.lse (m ((c : Thread nD τ).loc main_arg0)) (m ((c : Thread nD τ).loc main_arg1)) (i 0) : ℝ) : EReal)) :
    Pipeline.afterTail₀ cfgs (dats m) 0 (V0 m) [hostOps1] c main_v19
      = Host.divf (F := Ideal) (Host.reduceAdd (F := Ideal) (Cert.Spec.nll (m ((c : Thread nD τ).loc main_arg0)) (m ((c : Thread nD τ).loc main_arg1)) (m ((c : Thread nD τ).loc main_arg2))) (constant S_ .f32 0x00000000#32) reducesTo_S4096_S_d0 h_S_) (constant S_ .f32 0x45800000#32) :=
  (tail_term m c).trans (congrArg tailMean
    (vec_eq _ _ _ hadm _ _ _ _ (exit_v3 m c hfin) (exit_v0 m c) (exit_v1 m c) (exit_arg2 m c)))

end Cert.KernelIdeal.Tail
end
-- ==== Proof.PreDecode.lean ====
/-
  What the precondition says, entry by entry: every entry of x and of W is a real number (its absolute value is
  below +∞), and every label is a word that, read signed, lies in [0, 50257).

  The precondition is a conjunction of three "for all entries" statements, each an and-reduction over every axis of
  an array of one-bit truth values, started at 1.  Such a reduction is 1 exactly when every entry is 1, so the one
  bit the precondition returns being 1 gives, at every index, the entry's own comparison:
    * for x and W:  max a (−a) < +∞, where +∞ is the pattern 0x7F800000 read as an extended real;
    * for y:  0 ≤ y[i] and y[i] < 50257 as signed 32-bit words.
  An extended real whose absolute value is below +∞ is neither −∞ nor +∞, hence a real number; the two signed
  comparisons are the two inequalities between the integer values of the words.
-/
import proofs.«428059_j5652176961787_2_alg».proof.Pre_finite_inputs
import proofs.«428059_j5652176961787_2_alg».proof.Proof.Spec
import Idealize.ShloMosaic.Lib.ReduceAll
import Idealize.ShloMosaic.Lib.StableHlo.Predicate

noncomputable section

namespace Cert.PreDecode

open Idealize.ShloMosaic Idealize.ShloMosaic.ValueIdx

/-- The shape of a scalar has exactly one index (the empty tuple of coordinates). -/
instance : Subsingleton Cert.Pre_finite_inputs.S_.Idx := ⟨fun a b => funext fun d => d.elim0⟩

/-- An extended real `a` with |a| = max a (−a) strictly below +∞ (the pattern 0x7F800000) is a real number:
    for a = −∞ the maximum is −(−∞) = +∞, for a = +∞ it is +∞, and neither is below +∞; what is left is the
    embedding of a real, which is its own real part. -/
theorem real_of_abs_lt_inf (a : EReal)
    (h : Ideal.cmp .olt (max a (-a)) (Ideal.ofBits .f32 0x7F800000#32) = 1#1) : a = ((a.toReal : ℝ) : EReal) := by
  have hinf : Ideal.ofBits .f32 0x7F800000#32 = (⊤ : EReal) := by simp [Ideal.ofBits, Ideal.ieee]
  rw [hinf] at h
  induction a using EReal.rec with
  | bot => exact absurd h (by simp [Ideal.cmp])
  | coe r => rw [EReal.toReal_coe]
  | top => exact absurd h (by simp [Ideal.cmp])

/-- The printed precondition, all ones, gives the three facts the value proof uses. -/
theorem admissible [Cert.Pre_finite_inputs.Facts]
    (x : FVec Ideal Cert.Pre_finite_inputs.S4096x1024 .f32) (W : FVec Ideal Cert.Pre_finite_inputs.S50257x1024 .f32)
    (y : IVec Cert.Pre_finite_inputs.S4096 32)
    (h : Cert.Pre_finite_inputs.fn (F := Ideal) x W y = fun _ => 1#1) :
    Cert.Spec.Admissible x W y := by
  -- the one bit the precondition returns, as the conjunction (A ∧ B) ∧ C of three and-reductions
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  -- A: every |x[i]| is below +∞
  · exact real_of_abs_lt_inf (x i) (Host.reduce_andi_all _ _ _ _ _ h1 i)
  -- B: every |W[i]| is below +∞
  · exact real_of_abs_lt_inf (W i) (Host.reduce_andi_all _ _ _ _ _ h2 i)
  -- C: every label satisfies both signed comparisons, against the words 0 and 50257
  · obtain ⟨ea, eb⟩ := IntOp.andi_eq_one.1 (Host.reduce_andi_all _ _ _ _ _ h3 i)
    have ha : (0#32 : BitVec 32).toInt ≤ (y i).toInt := IntOp.cmpi_sge.1 ea
    have hb : (y i).toInt < (50257#32 : BitVec 32).toInt := IntOp.cmpi_slt.1 eb
    rw [show (0#32 : BitVec 32).toInt = 0 from by decide] at ha
    rw [show (50257#32 : BitVec 32).toInt = 50257 from by decide] at hb
    exact ⟨ha, hb⟩

end Cert.PreDecode

end
-- ==== Proof.RefValue.lean ====
/-
  The reference program's per-row losses are the specification's.

  For row n the reference forms the logits  L n k = ∑ d, x[n,d] · W[k,d]  over the 50257 vocabulary rows, their
  maximum μ (taken from −∞, and once more against −∞), the shifted logits  L n k − μ,  and the log-probabilities
      logp n k = (L n k − μ) − log (0 + ∑ k, exp (L n k − μ)).
  It then picks  logp n (y n)  with a gather whose start index is  select (y n < 0, y n + 50257, y n),  keeps the
  gathered entry where the start index passes the test  0 ≤ index ≤ 50256  and a NaN elsewhere, and negates.

  Under the precondition every entry of x and W is a real number and every label lies in [0, 50257). Then every
  logit is a real number, so the row maximum μ is one; the label is not negative, so the start index is the label
  and the test holds; and
      −((L n y − μ) − log (0 + ∑ k, exp (L n k − μ))) = log (∑ k, exp (L n k)) − L n y,
  the shift μ cancelling: the log-sum-exp of the row less the label's logit.
-/
import proofs.«428059_j5652176961787_2_alg».proof.Proof.RefRead
import proofs.«428059_j5652176961787_2_alg».proof.Proof.Spec
import proofs.«428059_j5652176961787_2_alg».proof.Proof.OnlineLse
import Idealize.ShloMosaic.PureOps.Ideal
import Idealize.ShloMosaic.PureOps.Ideal.Laws
import Idealize.ShloMosaic.PureOps.Reduce
import Idealize.ShloMosaic.Lib.ValueIdx
import Idealize.ShloMosaic.Lib.StableHlo.Predicate
import Mathlib.Data.EReal.Basic
import Mathlib.Data.Finset.Fold
import Mathlib.Algebra.BigOperators.Group.Finset.Basic

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ### The float side: logits, row maximum, shifted logits, log-probabilities -/

/-- The f32 pattern of −∞ is −∞. -/
theorem ofBits_neg_inf : Ideal.ofBits .f32 0xFF800000#32 = (⊥ : EReal) := by
  simp [Ideal.ofBits, Ideal.ieee]

/-- Entry (n, k) of the product x · Wᵀ: the sum over d of x[n,d] · W[k,d]; every factor being a real number, it is
    the real logit of row n against vocabulary row k. -/
theorem logits_apply (x : FVec Ideal S4096x1024 .f32) (W : FVec Ideal S50257x1024 .f32) (y : IVec S4096 32)
    (h : Cert.Spec.Admissible x W y) (n : Fin 4096) (k : Fin 50257) :
    Cert.ReferenceIdeal.ReadP.val_main_v0 (F := Ideal) x W (ix2 n k) = ((Cert.Spec.logit x W n k : ℝ) : EReal) := by
  rw [Cert.ReferenceIdeal.ReadP.val_main_v0_apply]
  unfold Cert.Spec.logit
  rw [Cert.OnlineLse.coe_sum]
  refine Finset.sum_congr rfl fun d _ => ?_
  have el : Cert.ReferenceIdeal.ReadP.lidx_main_v0 (ix2 n k) d = ix2 n d :=
    funext fun a => by match a with | ⟨0, _⟩ => rfl | ⟨1, _⟩ => rfl
  have er : Cert.ReferenceIdeal.ReadP.ridx_main_v0 (ix2 n k) d = ix2 k d :=
    funext fun a => by match a with | ⟨0, _⟩ => rfl | ⟨1, _⟩ => rfl
  rw [el, er, EReal.coe_mul, ← h.x_real, ← h.w_real]

/-- Row n with column k put back on the reduced axis is the index (n, k). -/
theorem lift_row (hR : S4096x50257.Reduces [1] S4096) (n : Fin 4096) (k : Fin 50257) :
    hR.lift (ix1 n) k = ix2 n k :=
  funext fun a => Fin.ext (by match a with | ⟨0, _⟩ => rfl | ⟨1, _⟩ => rfl)

/-- The row maximum of the logits, taken from −∞ and once more against −∞, is a real number: each logit is one. -/
theorem rowmax_real (x : FVec Ideal S4096x1024 .f32) (W : FVec Ideal S50257x1024 .f32) (y : IVec S4096 32)
    (h : Cert.Spec.Admissible x W y) (n : Fin 4096) :
    ∃ μ : ℝ, Cert.ReferenceIdeal.ReadP.val_main_call0_v2 (F := Ideal) x W (ix1 n) = (μ : EReal) := by
  obtain ⟨μ, hμ⟩ := Cert.OnlineLse.fold_max_real (n := 50257) (by norm_num) (Cert.Spec.logit x W n)
  refine ⟨μ, ?_⟩
  have hR : S4096x50257.Reduces [1] S4096 := by decide
  rw [Cert.ReferenceIdeal.ReadP.val_main_call0_v2_apply, Cert.ReferenceIdeal.ReadP.val_main_call0_v1_apply,
    Cert.ReferenceIdeal.ReadP.val_main_call0_cst_0_apply]
  unfold Cert.ReferenceIdeal.ReadP.val_main_call0_v0
  rw [Host.reduce_eq_fold_single (FloatOps.maximumf (F := Ideal) (φ := .f32)) _ _ reducesTo_S4096x50257_S4096_d1 hR h_S_ (ix1 n)]
  rw [← hμ]
  show max (Ideal.ofBits .f32 0xFF800000#32)
      (Finset.fold max (Ideal.ofBits .f32 0xFF800000#32)
        (Cert.ReferenceIdeal.ReadP.val_main_v0 (F := Ideal) x W ∘ hR.lift (ix1 n)) Finset.univ) = _
  rw [ofBits_neg_inf]
  refine congrArg (max (⊥ : EReal)) (Finset.fold_congr (fun k _ => ?_))
  exact (congrArg (Cert.ReferenceIdeal.ReadP.val_main_v0 (F := Ideal) x W) (lift_row hR n k)).trans
    (logits_apply x W y h n k)

/-- The shifted logit at (n, k): the logit less the row's maximum μ. -/
theorem shifted_apply (x : FVec Ideal S4096x1024 .f32) (W : FVec Ideal S50257x1024 .f32) (y : IVec S4096 32)
    (h : Cert.Spec.Admissible x W y) (n : Fin 4096) (k : Fin 50257) (μ : ℝ)
    (hμ : Cert.ReferenceIdeal.ReadP.val_main_call0_v2 (F := Ideal) x W (ix1 n) = (μ : EReal)) :
    Cert.ReferenceIdeal.ReadP.val_main_call0_v5 (F := Ideal) x W (ix2 n k)
      = ((Cert.Spec.logit x W n k : ℝ) : EReal) - (μ : EReal) := by
  have e : Cert.ReferenceIdeal.ReadP.idx_main_call0_v3 (Cert.ReferenceIdeal.ReadP.idx_main_call0_v4 (ix2 n k)) = ix1 n :=
    funext fun a => by match a with | ⟨0, _⟩ => rfl
  rw [Cert.ReferenceIdeal.ReadP.val_main_call0_v5_apply, Cert.ReferenceIdeal.ReadP.val_main_call0_v4_apply,
    Cert.ReferenceIdeal.ReadP.val_main_call0_v3_apply, logits_apply x W y h, e, hμ, Ideal.subf_def]

/-- Row n's sum of the exponentials of its shifted logits, from the initial value 0. -/
theorem sumexp_apply (x : FVec Ideal S4096x1024 .f32) (W : FVec Ideal S50257x1024 .f32) (y : IVec S4096 32)
    (h : Cert.Spec.Admissible x W y) (n : Fin 4096) (μ : ℝ)
    (hμ : Cert.ReferenceIdeal.ReadP.val_main_call0_v2 (F := Ideal) x W (ix1 n) = (μ : EReal)) :
    Cert.ReferenceIdeal.ReadP.val_main_call0_v7 (F := Ideal) x W (ix1 n)
      = 0 + ∑ k : Fin 50257, Ideal.exp (((Cert.Spec.logit x W n k : ℝ) : EReal) - (μ : EReal)) := by
  rw [Cert.ReferenceIdeal.ReadP.val_main_call0_v7_apply, Cert.ReferenceIdeal.ReadP.val_main_call0_cst_1_apply]
  show Ideal.ofBits .f32 0x00000000#32 + _ = _
  rw [Ideal.ofBits_zero_f32]
  refine congrArg ((0 : EReal) + ·) (Finset.sum_congr rfl fun k _ => ?_)
  have e : Cert.ReferenceIdeal.ReadP.idx_main_call0_v7 (ix1 n) k = ix2 n k :=
    funext fun a => by match a with | ⟨0, _⟩ => rfl | ⟨1, _⟩ => rfl
  rw [e, Cert.ReferenceIdeal.ReadP.val_main_call0_v6_apply, shifted_apply x W y h n k μ hμ, Ideal.hostUnary_exp_def]

/-- The log-probability at (n, k): the shifted logit less the logarithm of the row's sum of exponentials. -/
theorem logp_apply (x : FVec Ideal S4096x1024 .f32) (W : FVec Ideal S50257x1024 .f32) (y : IVec S4096 32)
    (h : Cert.Spec.Admissible x W y) (n : Fin 4096) (k : Fin 50257) (μ : ℝ)
    (hμ : Cert.ReferenceIdeal.ReadP.val_main_call0_v2 (F := Ideal) x W (ix1 n) = (μ : EReal)) :
    Cert.ReferenceIdeal.ReadP.val_main_v1 (F := Ideal) x W (ix2 n k)
      = (((Cert.Spec.logit x W n k : ℝ) : EReal) - (μ : EReal))
        - Ideal.log (0 + ∑ k' : Fin 50257, Ideal.exp (((Cert.Spec.logit x W n k' : ℝ) : EReal) - (μ : EReal))) := by
  have e : Cert.ReferenceIdeal.ReadP.idx_main_call0_v8 (Cert.ReferenceIdeal.ReadP.idx_main_call0_v10 (ix2 n k)) = ix1 n :=
    funext fun a => by match a with | ⟨0, _⟩ => rfl
  rw [Cert.ReferenceIdeal.ReadP.val_main_v1_apply, Cert.ReferenceIdeal.ReadP.val_main_call0_v10_apply,
    Cert.ReferenceIdeal.ReadP.val_main_call0_v9_apply, Cert.ReferenceIdeal.ReadP.val_main_call0_v8_apply,
    shifted_apply x W y h n k μ hμ, e, sumexp_apply x W y h n μ hμ, Ideal.subf_def, Ideal.hostUnary_log_def]

/-! ### The integer side: the gather's start index and the in-range mask -/

/-- A 32-bit word that, read signed, lies in [0, 50257) reads the same unsigned. -/
theorem toNat_of_range (b : BitVec 32) (hb : 0 ≤ b.toInt ∧ b.toInt < 50257) :
    b.toNat < 50257 ∧ b.toInt = (b.toNat : Int) := by
  have hc := BitVec.toInt_eq_toNat_cond b
  have hlt := b.isLt
  split at hc <;> omega

/-- The index the gather is given for row n: the label itself. The program adds 50257 to a negative label; a label
    in range is not negative, so the select takes the label as it stands, and the reshape to 4096×1×1 moves nothing. -/
theorem idx_apply (y : IVec S4096 32) (hy : ∀ i, 0 ≤ (y i).toInt ∧ (y i).toInt < 50257) (n : Fin 4096) (j k : Fin 1) :
    Cert.ReferenceIdeal.ReadP.val_main_call1_v5 (F := Ideal) y (ix3 n j k) = y (ix1 n) := by
  have e4 : Cert.ReferenceIdeal.ReadP.idx_main_call1_v5 (ix3 n j k) = ix2 n (0 : Fin 1) :=
    funext fun a => Fin.ext (by
      match a with
      | ⟨0, _⟩ =>
        show ((n.val * 1 + j.val) * 1 + k.val) / 1 = n.val
        have := j.isLt; have := k.isLt; omega
      | ⟨1, _⟩ => rfl)
  have e2 : Cert.ReferenceIdeal.ReadP.idx_main_v2 (ix2 n (0 : Fin 1)) = ix1 n :=
    funext fun a => by match a with | ⟨0, _⟩ => rfl
  have hn := (toNat_of_range _ (hy (ix1 n))).1
  have hs : IntOp.cmpi .slt (y (ix1 n)) (Cert.ReferenceIdeal.ReadP.val_main_call1_v0 (F := Ideal) (ix2 n (0 : Fin 1))) = 0#1 := by
    rw [Cert.ReferenceIdeal.ReadP.val_main_call1_v0_apply, Cert.ReferenceIdeal.ReadP.val_main_call1_c_apply]
    apply ValueIdx.eq_zero_of_ne_one
    rw [StableHlo.Predicate.slt_iff_toNat (by omega) (by decide)]
    exact Nat.not_lt_zero _
  rw [Cert.ReferenceIdeal.ReadP.val_main_call1_v5_apply, e4, Cert.ReferenceIdeal.ReadP.val_main_call1_v4_apply,
    Cert.ReferenceIdeal.ReadP.val_main_call1_v1_apply, Cert.ReferenceIdeal.ReadP.val_main_v2_apply, e2, hs,
    ValueIdx.select_zero]

/-- A conjunction, from true, of bits every one of which is true is true. -/
theorem fold_andi_one {ι : Type} (s : Finset ι) (f : ι → BitVec 1) (hf : ∀ k ∈ s, f k = 1#1) :
    s.fold IntOp.andi 1#1 f = 1#1 := by
  classical
  induction s using Finset.induction_on with
  | empty => rfl
  | insert a s ha ih =>
    rw [Finset.fold_insert ha, hf a (Finset.mem_insert_self a s),
      ih (fun k hk => hf k (Finset.mem_insert_of_mem hk))]
    rfl

/-- The in-range test of row n's index, 0 ≤ index ≤ 50256, holds: the index is the label. -/
theorem inrange_apply (y : IVec S4096 32) (hy : ∀ i, 0 ≤ (y i).toInt ∧ (y i).toInt < 50257) (n : Fin 4096) (j k : Fin 1) :
    Cert.ReferenceIdeal.ReadP.val_main_call1_v11 (F := Ideal) y (ix3 n j k) = 1#1 := by
  have hn := (toNat_of_range _ (hy (ix1 n))).1
  have e9 : Cert.ReferenceIdeal.ReadP.val_main_call1_v9 (F := Ideal) (ix3 n j k) = 50256#32 := by
    rw [Cert.ReferenceIdeal.ReadP.val_main_call1_v9_apply, Cert.ReferenceIdeal.ReadP.val_main_call1_v8_apply,
      Cert.ReferenceIdeal.ReadP.val_main_call1_c_1_apply]
  have e6 : Cert.ReferenceIdeal.ReadP.val_main_call1_v6 (F := Ideal) (ix3 n j k) = 0#32 := by
    rw [Cert.ReferenceIdeal.ReadP.val_main_call1_v6_apply, Cert.ReferenceIdeal.ReadP.val_main_call1_c_2_apply]
  have hge : IntOp.cmpi .sge (y (ix1 n)) 0#32 = 1#1 :=
    (StableHlo.Predicate.sge_iff_toNat (by omega) (by decide)).2 (Nat.zero_le _)
  have hle : IntOp.cmpi .sle (y (ix1 n)) 50256#32 = 1#1 :=
    (StableHlo.Predicate.sle_iff_toNat (by omega) (by decide)).2 (by show (y (ix1 n)).toNat ≤ 50256; omega)
  rw [Cert.ReferenceIdeal.ReadP.val_main_call1_v11_apply, Cert.ReferenceIdeal.ReadP.val_main_call1_v7_apply,
    Cert.ReferenceIdeal.ReadP.val_main_call1_v10_apply, idx_apply y hy n j k, e6, e9, hge, hle]
  rfl

/-- Row n's mask, the conjunction of its in-range tests along the last axis, is true. -/
theorem mask_apply (y : IVec S4096 32) (hy : ∀ i, 0 ≤ (y i).toInt ∧ (y i).toInt < 50257) (n : Fin 4096) :
    Cert.ReferenceIdeal.ReadP.val_main_call1_v12 (F := Ideal) y (ix2 n (0 : Fin 1)) = 1#1 := by
  have hR : S4096x1x1.Reduces [2] S4096x1 := by decide
  unfold Cert.ReferenceIdeal.ReadP.val_main_call1_v12
  rw [Host.reduce_eq_fold_single (IntOp.andi (w := 1)) _ _ reducesTo_S4096x1x1_S4096x1_d2 hR h_S_ (ix2 n (0 : Fin 1))]
  refine fold_andi_one _ _ (fun k _ => ?_)
  have el : hR.lift (ix2 n (0 : Fin 1)) k = ix3 n (0 : Fin 1) k :=
    funext fun a => Fin.ext (by match a with | ⟨0, _⟩ => rfl | ⟨1, _⟩ => rfl | ⟨2, _⟩ => rfl)
  exact (congrArg (Cert.ReferenceIdeal.ReadP.val_main_call1_v11 (F := Ideal) y) el).trans (inrange_apply y hy n 0 k)

/-! ### The gather -/

/-- The gather that takes one entry per row: result (n, 0) is the table's entry (n, c), where c is the row's start
    index read signed and clamped into the columns [0, 50256]. Axis 0 of the table is a batching axis, paired with
    axis 0 of the start indices, so it reads the result's row; axis 1 is the one the start index names. -/
theorem gather_label_apply {α : Type} (t : S4096x50257.Idx → α) (idx : IVec S4096x1x1 32) (n : Fin 4096) :
    Host.gather gather_S4096x50257_S4096x1x1_S4096x1_n_1_0_0_1_2_11 t idx (ix2 n (0 : Fin 1))
      = t (ix2 n (Cert.LibRows.clampRow 50257 (by decide) (idx (ix3 n (0 : Fin 1) (0 : Fin 1))))) := by
  unfold Host.gather
  congr 1
  funext a
  apply Fin.ext
  have hb0 : (0 : Fin 2) ∈ gather_S4096x50257_S4096x1x1_S4096x1_n_1_0_0_1_2_11.operandBatchingDims :=
    List.mem_singleton.mpr rfl
  have hb1 : (1 : Fin 2) ∉ gather_S4096x50257_S4096x1x1_S4096x1_n_1_0_0_1_2_11.operandBatchingDims := by
    show (1 : Fin 2) ∉ [0]; simp
  have hk0 : (0 : Fin 2) ∉ gather_S4096x50257_S4096x1x1_S4096x1_n_1_0_0_1_2_11.sKept := fun hk =>
    ((GatherDims.mem_sKept _ 0).1 hk).2 hb0
  have hk1 : (1 : Fin 2) ∉ gather_S4096x50257_S4096x1x1_S4096x1_n_1_0_0_1_2_11.sKept := fun hk =>
    ((GatherDims.mem_sKept _ 1).1 hk).1 (List.mem_singleton.mpr rfl)
  have hm1 : (1 : Fin 2) ∈ gather_S4096x50257_S4096x1x1_S4096x1_n_1_0_0_1_2_11.startIndexMap :=
    List.mem_singleton.mpr rfl
  match a with
  | ⟨0, _⟩ =>
    show gather_S4096x50257_S4096x1x1_S4096x1_n_1_0_0_1_2_11.start (ix2 n (0 : Fin 1)) idx 0
        + gather_S4096x50257_S4096x1x1_S4096x1_n_1_0_0_1_2_11.batchCoord (ix2 n (0 : Fin 1)) 0
        + gather_S4096x50257_S4096x1x1_S4096x1_n_1_0_0_1_2_11.offCoord (ix2 n (0 : Fin 1)) 0 = n.val
    rw [GatherDims.start_batching _ _ _ _ hb0, GatherDims.offCoord_eq_zero _ _ _ hk0, Nat.zero_add, Nat.add_zero]
    unfold GatherDims.batchCoord
    rw [dif_pos hb0]
    rfl
  | ⟨1, _⟩ =>
    show gather_S4096x50257_S4096x1x1_S4096x1_n_1_0_0_1_2_11.start (ix2 n (0 : Fin 1)) idx 1
        + gather_S4096x50257_S4096x1x1_S4096x1_n_1_0_0_1_2_11.batchCoord (ix2 n (0 : Fin 1)) 1
        + gather_S4096x50257_S4096x1x1_S4096x1_n_1_0_0_1_2_11.offCoord (ix2 n (0 : Fin 1)) 1
        = (Cert.LibRows.clampRow 50257 (by decide) (idx (ix3 n (0 : Fin 1) (0 : Fin 1)))).val
    rw [GatherDims.batchCoord_eq_zero _ _ _ hb1, GatherDims.offCoord_eq_zero _ _ _ hk1, Nat.add_zero]
    unfold GatherDims.start
    rw [dif_pos hm1]
    have esi : ∀ c : Fin gather_S4096x50257_S4096x1x1_S4096x1_n_1_0_0_1_2_11.startIndexMap.length,
        gather_S4096x50257_S4096x1x1_S4096x1_n_1_0_0_1_2_11.siIdx (ix2 n (0 : Fin 1)) c
          = ix3 n (0 : Fin 1) (0 : Fin 1) := fun c => funext fun b => Fin.ext (by
      have hc : c.val < 1 := c.isLt
      match b with
      | ⟨0, _⟩ => rfl
      | ⟨1, _⟩ => rfl
      | ⟨2, _⟩ => show c.val = 0; omega)
    rw [esi]
    rfl

/-! ### The rows of the result, and the run -/

/-- Row n of the negated result is row n's negative log-likelihood. The mask is true, so the select keeps the gathered
    entry; the gathered entry is the log-probability at the label; and with the row's maximum a real number μ,
    −((L − μ) − log (0 + Σ exp (L k − μ))) = log (Σ exp (L k)) − L, the shift cancelling. -/
theorem nll_row (x : FVec Ideal S4096x1024 .f32) (W : FVec Ideal S50257x1024 .f32) (y : IVec S4096 32)
    (h : Cert.Spec.Admissible x W y) (n : Fin 4096) :
    Cert.ReferenceIdeal.ReadP.val_main_v5 (F := Ideal) x W y (ix1 n) = Cert.Spec.nll x W y (ix1 n) := by
  obtain ⟨μ, hμ⟩ := rowmax_real x W y h n
  have e4 : Cert.ReferenceIdeal.ReadP.idx_main_v4 (ix1 n) = ix2 n (0 : Fin 1) :=
    funext fun a => Fin.ext (by
      match a with
      | ⟨0, _⟩ => show n.val / 1 = n.val; omega
      | ⟨1, _⟩ => rfl)
  rw [Cert.ReferenceIdeal.ReadP.val_main_v5_apply, Cert.ReferenceIdeal.ReadP.val_main_v4_apply, e4,
    Cert.ReferenceIdeal.ReadP.val_main_v3_apply, mask_apply y h.y_range n, ValueIdx.select_one]
  unfold Cert.ReferenceIdeal.ReadP.val_main_call1_v13
  rw [gather_label_apply, idx_apply y h.y_range n 0 0]
  show FloatOps.hostNegf (F := Ideal) (φ := .f32)
      (Cert.ReferenceIdeal.ReadP.val_main_v1 (F := Ideal) x W (ix2 n (Cert.Spec.label y n)))
    = ((Real.log (∑ k : Fin 50257, Real.exp (Cert.Spec.logit x W n k))
        - Cert.Spec.logit x W n (Cert.Spec.label y n) : ℝ) : EReal)
  rw [logp_apply x W y h n _ μ hμ, Ideal.hostNegf_def, Ideal.negf_def]
  have hs := Cert.OnlineLse.shifted_row (Cert.OnlineLse.ofFin 50257 (Cert.Spec.logit x W n)) 50257 (by norm_num)
    (Cert.Spec.label y n).val μ
  rw [Cert.OnlineLse.sum_range_ofFin 50257 (Cert.Spec.logit x W n) Real.exp] at hs
  simp only [Cert.OnlineLse.ofFin_val] at hs
  exact hs

/-- The reference's vector of per-row losses, before the mean, is the specification's. -/
theorem nll_eq (x : FVec Ideal S4096x1024 .f32) (W : FVec Ideal S50257x1024 .f32) (y : IVec S4096 32)
    (h : Cert.Spec.Admissible x W y) :
    Cert.ReferenceIdeal.ReadP.val_main_v5 (F := Ideal) x W y = Cert.Spec.nll x W y := by
  funext i
  obtain ⟨n, rfl⟩ : ∃ n : Fin 4096, i = ix1 n := ⟨i 0, eq_ix1 i⟩
  exact nll_row x W y h n

/-- The reference's run, its result stated over the per-row losses: the mean is their sum from 0, divided by 4096. -/
theorem run_nll (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v7)
        = Host.divf (F := Ideal) (Host.reduceAdd (F := Ideal) (Cert.ReferenceIdeal.ReadP.val_main_v5 (F := Ideal) (m ((c.tc : Thread nD τ).loc main_arg0)) (m ((c.tc : Thread nD τ).loc main_arg1)) (m ((c.tc : Thread nD τ).loc main_arg2))) (constant S_ .f32 0x00000000#32) reducesTo_S4096_S_d0 h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Cert.ReferenceIdeal.RunP.run (F := Ideal) m ρ)

end Cert.ReferenceIdeal.RefValue

end
-- ==== Proof.lean ====
/-
  The fused cross-entropy kernel against its reference: both compute the mean, over the 4096 rows n of x, of
      log (∑ over the 50257 vocabulary rows k of exp (x[n,·] · W[k,·]))  −  x[n,·] · W[y[n],·].

  The kernel never forms the [4096, 50257] matrix of logits.  For each of two blocks of 2048 rows it walks the
  vocabulary in 99 tiles of 512 columns (the 431 columns past the vocabulary masked to −∞), carrying per row a
  running maximum m and the running sum l of exp (logit − m); one tile replaces (m, l) by
  (m', exp (m − m') · l + ∑ over the tile of exp (logit − m')) with m' = max m (the tile's maximum), and the last tile
  writes m + log l.  Whatever real number m is, l is the sum over the columns seen so far of exp (logit − m), so
  m + log l is the log-sum-exp of the row and the shift cancels; the pair before the first tile is (−∞, 0), and
  exp (−∞) · 0 = 0.  The host lines after the region gather row y[n] of W, take its dot product with row n of x,
  subtract it from the row's log-sum-exp and average.

  The reference shifts each row's logits by the row's maximum, takes the log-softmax, picks the label's entry,
  negates and averages; with any real shift this is again log-sum-exp minus the label's logit.

  Two things are used of the precondition: every entry of x and W is a real number (so every logit, maximum and sum
  of exponentials is real and the algebra above is algebra over the reals), and every label lies in [0, 50257) (so
  both programs read the same row of W, resp. column of the log-softmax, and the reference's out-of-range fill never
  applies).  The changes of float format in the kernel are the identity on extended reals.
-/
import proofs.«428059_j5652176961787_2_alg».proof.Defs
import proofs.«428059_j5652176961787_2_alg».proof.Proof.Gen.Kernel
import proofs.«428059_j5652176961787_2_alg».proof.Proof.Gen.Kernel.Frame
import proofs.«428059_j5652176961787_2_alg».proof.Proof.Gen.KernelIdeal
import proofs.«428059_j5652176961787_2_alg».proof.Proof.Gen.KernelIdeal.Frame
import proofs.«428059_j5652176961787_2_alg».proof.Proof.Gen.ReferenceIdeal
import proofs.«428059_j5652176961787_2_alg».proof.Proof.Gen.Pre_finite_inputs
import proofs.«428059_j5652176961787_2_alg».proof.Proof.KernelValue
import proofs.«428059_j5652176961787_2_alg».proof.Proof.KernelTail
import proofs.«428059_j5652176961787_2_alg».proof.Proof.PreDecode
import proofs.«428059_j5652176961787_2_alg».proof.Proof.RefValue
import Idealize.ShloMosaic.Adequacy
import Idealize.ShloMosaic.Init

set_option maxRecDepth 16384

noncomputable section

open Idealize.ShloMosaic Idealize.ShloMosaic.TcCoe Idealize.SL.Sem

/-! ## The kernel's run, read: the result is the mean of the rows' losses -/

namespace Cert.KernelIdeal.Closing

open Cert.KernelIdeal Cert.KernelIdeal.Gen Idealize.ShloMosaic.ValueIdx

/-- Under the precondition every weakly fair execution of the idealized kernel ends with its result at the mean over
    the 4096 rows of (log-sum-exp of the row's logits − the label's logit), its arguments unchanged: the region
    leaves every row's log-sum-exp in its result array, and the host lines after it subtract the label's logit and
    average. -/
theorem run (m : (ℓ : Loc nD τ sig) → Buf (Elt Ideal) ℓ) (ρ : Dev nD → PrngReg) (hpre : Cert.Pre_KernelIdeal m) :
    θ_run defs (onTc (τ := τ) (main (F := Ideal))) ⟨m, fun _ => 0, ρ⟩ fun r => ∀ c : Dev nD,
      r.2.mem ((c.tc : Thread nD τ).loc main_v19)
        = Host.divf (F := Ideal) (Host.reduceAdd (F := Ideal) (Cert.Spec.nll (m ((c.tc : Thread nD τ).loc main_arg0)) (m ((c.tc : Thread nD τ).loc main_arg1)) (m ((c.tc : Thread nD τ).loc main_arg2))) (constant S_ .f32 0x00000000#32) reducesTo_S4096_S_d0 h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hadm : ∀ c : Dev nD, Cert.Spec.Admissible (m ((c.tc : Thread nD τ).loc main_arg0)) (m ((c.tc : Thread nD τ).loc main_arg1)) (m ((c.tc : Thread nD τ).loc main_arg2)) :=
    fun c => Cert.PreDecode.admissible _ _ _ (hpre c)
  exact (θ_run defs _ _).mono (fun _ h c =>
    ⟨((h c).2 main_v19 (Pipeline.mem_restRefs_of main_v19 (by decide) (by decide))).trans
        (Cert.KernelIdeal.Tail.tail_eq m c (hadm c) (Cert.KernelIdeal.KValue.final m c ⟨(hadm c).x_real, (hadm c).w_real⟩)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Closing

/-! ## The claims -/

namespace Cert.Proof

open Idealize.ShloMosaic Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RefValue.run_nll m ρ)

/-- The idealization names the kernel's finite stand-in for −∞ (the word 0xFF333332, −0.7 times the largest float) as
    −∞, at both places it occurs: the reset value of the running maximum and the fill of the columns past the
    vocabulary. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both programs end with the mean over the 4096 rows of (log-sum-exp of the row's logits − the label's logit): the
    kernel by its run above, the reference because its per-row vector is the same function of arguments that agree, and
    both close with the same sum over the rows and the same division by 4096. -/
theorem algebraic : Cert.algebraic_KernelIdeal_ReferenceIdeal := by
  intro m ρ m' ρ' hpre hagree
  refine ⟨_, Cert.KernelIdeal.Closing.run m ρ hpre, ?_⟩
  refine (θ_run Cert.ReferenceIdeal.defs _ _).mono (fun _ h c => ⟨(h c).1.trans ?_, (h c).2⟩)
    (Cert.ReferenceIdeal.RefValue.run_nll m' ρ')
  rw [(hagree c).1, (hagree c).2.1, (hagree c).2.2,
    Cert.ReferenceIdeal.RefValue.nll_eq _ _ _ (Cert.PreDecode.admissible _ _ _ (hpre c))]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
